-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2x640x640 : Shape := ⟨4, ![8, 2, 640, 640]⟩
abbrev S8x640x640 : Shape := ⟨3, ![8, 640, 640]⟩
abbrev S8 : Shape := ⟨1, ![8]⟩
abbrev S_ : Shape := ⟨0, ![]⟩

class Facts : Prop where
  bcast_S_S8x2x640x640 : S_.BroadcastsInDim S8x2x640x640 (![] : Fin 0 → Fin S8x2x640x640.rank)
  reducesTo_S8x2x640x640_S_d0_1_2_3 : S8x2x640x640.ReducesTo [0, 1, 2, 3] S_
  h_S_ : 0 < S_.numel
  bcast_S_S8x640x640 : S_.BroadcastsInDim S8x640x640 (![] : Fin 0 → Fin S8x640x640.rank)
  reducesTo_S8x640x640_S_d0_1_2 : S8x640x640.ReducesTo [0, 1, 2] S_

variable [Facts]

def fn_part2 {F : FTy → Type} [FloatOps F] (main_v27 : IVec S_ 1) (main_v32 : IVec S8x640x640 1) (main_c_12 : IVec S_ 1) : IVec S_ 1 :=
  let main_v33 : IVec S_ 1 := (fun x v => Host.reduce IntOp.andi x v reducesTo_S8x640x640_S_d0_1_2 h_S_) main_v32 main_c_12
  let main_v34 : IVec S_ 1 := andi main_v27 main_v33
  main_v34

def fn_part1 {F : FTy → Type} [FloatOps F] (main_arg1 : FVec F S8x640x640 .f32) (main_arg2 : IVec S8x640x640 32) (main_arg3 : FVec F S8x640x640 .f32) (main_v13 : IVec S_ 1) (main_v15 : IVec S8x640x640 1) (main_cst_5 : FVec F S_ .f32) : IVec S_ 1 :=
  let main_v16 : FVec F S8x640x640 .f32 := broadcastInDim S8x640x640 ![] bcast_S_S8x640x640 main_cst_5
  let main_v17 : IVec S8x640x640 1 := cmpf .oeq main_arg1 main_v16
  let main_v18 : IVec S8x640x640 1 := ori main_v15 main_v17
  let main_c_6 : IVec S_ 1 := constantI S_ 1 1#1
  let main_v19 : IVec S_ 1 := (fun x v => Host.reduce IntOp.andi x v reducesTo_S8x640x640_S_d0_1_2 h_S_) main_v18 main_c_6
  let main_v20 : IVec S_ 1 := andi main_v13 main_v19
  let main_cst_7 : FVec F S_ .f32 := constant S_ .f32 0x00000000#32
  let main_v21 : FVec F S8x640x640 .f32 := broadcastInDim S8x640x640 ![] bcast_S_S8x640x640 main_cst_7
  let main_v22 : IVec S8x640x640 1 := cmpf .oeq main_arg3 main_v21
  let main_cst_8 : FVec F S_ .f32 := constant S_ .f32 0x3F800000#32
  let main_v23 : FVec F S8x640x640 .f32 := broadcastInDim S8x640x640 ![] bcast_S_S8x640x640 main_cst_8
  let main_v24 : IVec S8x640x640 1 := cmpf .oeq main_arg3 main_v23
  let main_v25 : IVec S8x640x640 1 := ori main_v22 main_v24
  let main_c_9 : IVec S_ 1 := constantI S_ 1 1#1
  let main_v26 : IVec S_ 1 := (fun x v => Host.reduce IntOp.andi x v reducesTo_S8x640x640_S_d0_1_2 h_S_) main_v25 main_c_9
  let main_v27 : IVec S_ 1 := andi main_v20 main_v26
  let main_c_10 : IVec S_ 32 := constantI S_ 32 0#32
  let main_v28 : IVec S8x640x640 32 := broadcastInDim S8x640x640 ![] bcast_S_S8x640x640 main_c_10
  let main_v29 : IVec S8x640x640 1 := cmpi .sge main_arg2 main_v28
  let main_c_11 : IVec S_ 32 := constantI S_ 32 16#32
  let main_v30 : IVec S8x640x640 32 := broadcastInDim S8x640x640 ![] bcast_S_S8x640x640 main_c_11
  let main_v31 : IVec S8x640x640 1 := cmpi .slt main_arg2 main_v30
  let main_v32 : IVec S8x640x640 1 := andi main_v29 main_v31
  let main_c_12 : IVec S_ 1 := constantI S_ 1 1#1
  fn_part2 (F := F) main_v27 main_v32 main_c_12

def fn {F : FTy → Type} [FloatOps F] (main_arg0 : FVec F S8x2x640x640 .f32) (main_arg1 : FVec F S8x640x640 .f32) (main_arg2 : IVec S8x640x640 32) (main_arg3 : FVec F S8x640x640 .f32) (main_arg4 : IVec S8 32) : IVec S_ 1 :=
  let main_v0 : FVec F S8x2x640x640 .f32 := Host.absf main_arg0
  let main_cst : FVec F S_ .f32 := constant S_ .f32 0x7F800000#32
  let main_v1 : FVec F S8x2x640x640 .f32 := broadcastInDim S8x2x640x640 ![] bcast_S_S8x2x640x640 main_cst
  let main_v2 : IVec S8x2x640x640 1 := cmpf .olt main_v0 main_v1
  let main_c : IVec S_ 1 := constantI S_ 1 1#1
  let main_v3 : IVec S_ 1 := (fun x v => Host.reduce IntOp.andi x v reducesTo_S8x2x640x640_S_d0_1_2_3 h_S_) main_v2 main_c
  let main_v4 : FVec F S8x640x640 .f32 := Host.absf main_arg1
  let main_cst_0 : FVec F S_ .f32 := constant S_ .f32 0x7F800000#32
  let main_v5 : FVec F S8x640x640 .f32 := broadcastInDim S8x640x640 ![] bcast_S_S8x640x640 main_cst_0
  let main_v6 : IVec S8x640x640 1 := cmpf .olt main_v4 main_v5
  let main_c_1 : IVec S_ 1 := constantI S_ 1 1#1
  let main_v7 : IVec S_ 1 := (fun x v => Host.reduce IntOp.andi x v reducesTo_S8x640x640_S_d0_1_2 h_S_) main_v6 main_c_1
  let main_v8 : IVec S_ 1 := andi main_v3 main_v7
  let main_v9 : FVec F S8x640x640 .f32 := Host.absf main_arg3
  let main_cst_2 : FVec F S_ .f32 := constant S_ .f32 0x7F800000#32
  let main_v10 : FVec F S8x640x640 .f32 := broadcastInDim S8x640x640 ![] bcast_S_S8x640x640 main_cst_2
  let main_v11 : IVec S8x640x640 1 := cmpf .olt main_v9 main_v10
  let main_c_3 : IVec S_ 1 := constantI S_ 1 1#1
  let main_v12 : IVec S_ 1 := (fun x v => Host.reduce IntOp.andi x v reducesTo_S8x640x640_S_d0_1_2 h_S_) main_v11 main_c_3
  let main_v13 : IVec S_ 1 := andi main_v8 main_v12
  let main_cst_4 : FVec F S_ .f32 := constant S_ .f32 0x00000000#32
  let main_v14 : FVec F S8x640x640 .f32 := broadcastInDim S8x640x640 ![] bcast_S_S8x640x640 main_cst_4
  let main_v15 : IVec S8x640x640 1 := cmpf .oeq main_arg1 main_v14
  let main_cst_5 : FVec F S_ .f32 := constant S_ .f32 0x3F800000#32
  fn_part1 (F := F) main_arg1 main_arg2 main_arg3 main_v13 main_v15 main_cst_5
-- ==== Kernel.lean ====
abbrev S8x2x640x640 : Shape := ⟨4, ![8, 2, 640, 640]⟩
abbrev S8x640x640 : Shape := ⟨3, ![8, 640, 640]⟩
abbrev S8 : Shape := ⟨1, ![8]⟩
abbrev S8x1x128 : Shape := ⟨3, ![8, 1, 128]⟩
abbrev S1x2x640x640 : Shape := ⟨4, ![1, 2, 640, 640]⟩
abbrev S1x640x640 : Shape := ⟨3, ![1, 640, 640]⟩
abbrev S1x1x128 : Shape := ⟨3, ![1, 1, 128]⟩
abbrev S1x1x640x640 : Shape := ⟨4, ![1, 1, 640, 640]⟩
abbrev S640x640 : Shape := ⟨2, ![640, 640]⟩
abbrev S640 : Shape := ⟨1, ![640]⟩
abbrev S640x1 : Shape := ⟨2, ![640, 1]⟩
abbrev S1 : Shape := ⟨1, ![1]⟩
abbrev S1x1 : Shape := ⟨2, ![1, 1]⟩
abbrev S1x128 : Shape := ⟨2, ![1, 128]⟩
abbrev S8x128 : Shape := ⟨2, ![8, 128]⟩
abbrev S8x1 : Shape := ⟨2, ![8, 1]⟩
abbrev S_ : Shape := ⟨0, ![]⟩

abbrev nBuf : Space → Nat
  | .hbm => 46
  | .vmem => 10
  | .smem => 0
  | _ => 0

abbrev bufTy : (tb : Table) → Fin (tcTables nBuf tb) → BufTy
  | .hbm, ⟨0, _⟩ => ⟨S8x2x640x640, .f32⟩
  | .hbm, ⟨1, _⟩ => ⟨S8x640x640, .f32⟩
  | .hbm, ⟨2, _⟩ => ⟨S8x640x640, .i32⟩
  | .hbm, ⟨3, _⟩ => ⟨S8x640x640, .f32⟩
  | .hbm, ⟨4, _⟩ => ⟨S8, .i32⟩
  | .hbm, ⟨5, _⟩ => ⟨S8x1x128, .f32⟩
  | .hbm, ⟨6, _⟩ => ⟨S8x128, .f32⟩
  | .hbm, ⟨7, _⟩ => ⟨S8x1, .f32⟩
  | .hbm, ⟨8, _⟩ => ⟨S8, .f32⟩
  | .hbm, ⟨9, _⟩ => ⟨S_, .f32⟩
  | .hbm, ⟨10, _⟩ => ⟨S_, .f32⟩
  | .hbm, ⟨11, _⟩ => ⟨S8x1, .f32⟩
  | .hbm, ⟨12, _⟩ => ⟨S8, .f32⟩
  | .hbm, ⟨13, _⟩ => ⟨S_, .f32⟩
  | .hbm, ⟨14, _⟩ => ⟨S_, .f32⟩
  | .hbm, ⟨15, _⟩ => ⟨S8x1, .f32⟩
  | .hbm, ⟨16, _⟩ => ⟨S8, .f32⟩
  | .hbm, ⟨17, _⟩ => ⟨S_, .f32⟩
  | .hbm, ⟨18, _⟩ => ⟨S_, .f32⟩
  | .hbm, ⟨19, _⟩ => ⟨S8x1, .f32⟩
  | .hbm, ⟨20, _⟩ => ⟨S8, .f32⟩
  | .hbm, ⟨21, _⟩ => ⟨S_, .f32⟩
  | .hbm, ⟨22, _⟩ => ⟨S_, .f32⟩
  | .hbm, ⟨23, _⟩ => ⟨S8x1, .f32⟩
  | .hbm, ⟨24, _⟩ => ⟨S8, .f32⟩
  | .hbm, ⟨25, _⟩ => ⟨S_, .f32⟩
  | .hbm, ⟨26, _⟩ => ⟨S_, .f32⟩
  | .hbm, ⟨27, _⟩ => ⟨S8x1, .f32⟩
  | .hbm, ⟨28, _⟩ => ⟨S8, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .local _ .vmem, ⟨0, _⟩ => ⟨S1x2x640x640, .f32⟩
  | .local _ .vmem, ⟨1, _⟩ => ⟨S1x2x640x640, .f32⟩
  | .local _ .vmem, ⟨2, _⟩ => ⟨S1x640x640, .f32⟩
  | .local _ .vmem, ⟨3, _⟩ => ⟨S1x640x640, .f32⟩
  | .local _ .vmem, ⟨4, _⟩ => ⟨S1x640x640, .f32⟩
  | .local _ .vmem, ⟨5, _⟩ => ⟨S1x640x640, .f32⟩
  | .local _ .vmem, ⟨6, _⟩ => ⟨S1x640x640, .i32⟩
  | .local _ .vmem, ⟨7, _⟩ => ⟨S1x640x640, .i32⟩
  | .local _ .vmem, ⟨8, _⟩ => ⟨S1x1x128, .f32⟩
  | .local _ .vmem, ⟨9, _⟩ => ⟨S1x1x128, .f32⟩
  | _, _ => ⟨S8x2x640x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c15_i32 : BitVec 32 := 15#32
  let v77 : BitVec 32 := Scalar.addi c0_i32 c15_i32
  let c1_i32 : BitVec 32 := 1#32
  ⟨c0_i32, v77, c1_i32⟩
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2x640x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x640x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x640x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x640x640 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1x2x640x640_S1x1x640x640_0_0_0_0 : ∀ a, (![0, 0, 0, 0] : Fin 4 → Nat) a + S1x1x640x640.size a ≤ S1x2x640x640.size a
  h_S1x1x640x640 : 0 < S1x1x640x640.numel
  shapeCasts_S1x1x640x640_S640x640 : S1x1x640x640.ShapeCasts S640x640
  inb_S1x2x640x640_S1x1x640x640_0_1_0_0 : ∀ a, (![0, 1, 0, 0] : Fin 4 → Nat) a + S1x1x640x640.size a ≤ S1x2x640x640.size a
  inb_S1x640x640_S1x640x640_0_0_0 : ∀ a, (![0, 0, 0] : Fin 3 → Nat) a + S1x640x640.size a ≤ S1x640x640.size a
  h_S1x640x640 : 0 < S1x640x640.numel
  shapeCasts_S1x640x640_S640x640 : S1x640x640.ShapeCasts S640x640
  reduces_S640x640_S640 : S640x640.Reduces [1] S640
  shapeCasts_S640_S640x1 : S640.ShapeCasts S640x1
  reduces_S640x1_S1 : S640x1.Reduces [0] S1
  shapeCasts_S1_S1x1 : S1.ShapeCasts S1x1
  natLt_1_32 : 1 < 32
  iota_S1x128_d1_w32 : S1x128.Iotas .tc 32 [1]
  shapeCasts_S1x1_S1x1 : S1x1.ShapeCasts S1x1
  broadcasts_S1x1_S1x128 : S1x1.Broadcasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  shapeCasts_S8x1x128_S8x128 : S8x1x128.ShapeCasts S8x128
  slices_S8x128_S8x1_0_0 : S8x128.Slices ![0, 0] S8x1
  shapeCasts_S8x1_S8 : S8x1.ShapeCasts S8
  reducesTo_S8_S_d0 : S8.ReducesTo [0] S_
  h_S_ : 0 < S_.numel
  slices_S8x128_S8x1_0_1 : S8x128.Slices ![0, 1] S8x1
  slices_S8x128_S8x1_0_2 : S8x128.Slices ![0, 2] S8x1
  slices_S8x128_S8x1_0_3 : S8x128.Slices ![0, 3] S8x1
  slices_S8x128_S8x1_0_4 : S8x128.Slices ![0, 4] S8x1
  slices_S8x128_S8x1_0_5 : S8x128.Slices ![0, 5] S8x1
  hrank0 : 0 < grid0.rank
  k0_t1_ok : k0_t1_loop.OK
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x640x640.size a ≤ S8x2x640x640.size a
  hwx0_0 : ∀ i : grid0.Coords, EltTy.bits .f32 = 32 ∨ (Rect.block (s := S8x2x640x640) S1x2x640x640.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x640x640.size a ≤ S8x640x640.size a
  hwx0_1 : ∀ i : grid0.Coords, EltTy.bits .f32 = 32 ∨ (Rect.block (s := S8x640x640) S1x640x640.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x640x640.size a ≤ S8x640x640.size a
  hwx0_2 : ∀ i : grid0.Coords, EltTy.bits .f32 = 32 ∨ (Rect.block (s := S8x640x640) S1x640x640.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x640x640.size a ≤ S8x640x640.size a
  hwx0_3 : ∀ i : grid0.Coords, EltTy.bits .i32 = 32 ∨ (Rect.block (s := S8x640x640) S1x640x640.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S8x1x128.size a
  hwx0_4 : ∀ i : grid0.Coords, EltTy.bits .f32 = 32 ∨ (Rect.block (s := S8x1x128) S1x1x128.size (cc0_transform_4 i) (hinb0_4 i)).WholeWords (EltTy.packing .f32)

variable [Facts₀]

abbrev win0_0 : Pipeline.Window sig grid0 :=
  Pipeline.Window.ofSpec (Memref.whole main_arg0) S1x2x640x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x640x640.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x640x640.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x640x640.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2x640x640 : Shape := ⟨4, ![8, 2, 640, 640]⟩
abbrev S8x640x640 : Shape := ⟨3, ![8, 640, 640]⟩
abbrev S8 : Shape := ⟨1, ![8]⟩
abbrev S8x1x640x640 : Shape := ⟨4, ![8, 1, 640, 640]⟩
abbrev S_ : Shape := ⟨0, ![]⟩
abbrev S8x1x1 : Shape := ⟨3, ![8, 1, 1]⟩
abbrev S3276800 : Shape := ⟨1, ![3276800]⟩
abbrev S128 : Shape := ⟨1, ![128]⟩
abbrev S3276800x1 : Shape := ⟨2, ![3276800, 1]⟩
abbrev S8x16 : Shape := ⟨2, ![8, 16]⟩

abbrev nBuf : Space → Nat
  | .hbm => 147
  | .vmem => 0
  | .smem => 0
  | _ => 0

abbrev hbmTy0_0 (i : Nat) : BufTy := match i % 128 with
  | 0 => ⟨S8x2x640x640, .f32⟩
  | 1 => ⟨S8x640x640, .f32⟩
  | 2 => ⟨S8x640x640, .i32⟩
  | 3 => ⟨S8x640x640, .f32⟩
  | 4 => ⟨S8, .i32⟩
  | 5 => ⟨S8x1x640x640, .f32⟩
  | 6 => ⟨S8x640x640, .f32⟩
  | 7 => ⟨S8x1x640x640, .f32⟩
  | 8 => ⟨S8x640x640, .f32⟩
  | 9 => ⟨S8x640x640, .f32⟩
  | 10 => ⟨S8x640x640, .f32⟩
  | 11 => ⟨S_, .f32⟩
  | 12 => ⟨S_, .f32⟩
  | 13 => ⟨S8x640x640, .f32⟩
  | 14 => ⟨S8x640x640, .f32⟩
  | 15 => ⟨S8x640x640, .f32⟩
  | 16 => ⟨S8x640x640, .f32⟩
  | 17 => ⟨S_, .f32⟩
  | 18 => ⟨S_, .f32⟩
  | 19 => ⟨S8x640x640, .f32⟩
  | 20 => ⟨S8x640x640, .f32⟩
  | 21 => ⟨S8x640x640, .f32⟩
  | 22 => ⟨S_, .f32⟩
  | 23 => ⟨S8x640x640, .f32⟩
  | 24 => ⟨S8x640x640, .f32⟩
  | 25 => ⟨S8x640x640, .f32⟩
  | 26 => ⟨S8x640x640, .f32⟩
  | 27 => ⟨S8x640x640, .f32⟩
  | 28 => ⟨S8x640x640, .f32⟩
  | 29 => ⟨S8x640x640, .f32⟩
  | 30 => ⟨S_, .f32⟩
  | 31 => ⟨S_, .f32⟩
  | 32 => ⟨S8x640x640, .f32⟩
  | 33 => ⟨S8x640x640, .f32⟩
  | 34 => ⟨S8x640x640, .f32⟩
  | 35 => ⟨S8x640x640, .f32⟩
  | 36 => ⟨S_, .f32⟩
  | 37 => ⟨S_, .f32⟩
  | 38 => ⟨S8x640x640, .f32⟩
  | 39 => ⟨S8x640x640, .f32⟩
  | 40 => ⟨S8x640x640, .f32⟩
  | 41 => ⟨S_, .f32⟩
  | 42 => ⟨S8x640x640, .f32⟩
  | 43 => ⟨S8x640x640, .f32⟩
  | 44 => ⟨S8x640x640, .f32⟩
  | 45 => ⟨S8x640x640, .f32⟩
  | 46 => ⟨S8x640x640, .f32⟩
  | 47 => ⟨S_, .f32⟩
  | 48 => ⟨S_, .f32⟩
  | 49 => ⟨S_, .f32⟩
  | 50 => ⟨S_, .f32⟩
  | 51 => ⟨S8x640x640, .f32⟩
  | 52 => ⟨S8x640x640, .f32⟩
  | 53 => ⟨S8x640x640, .f32⟩
  | 54 => ⟨S8, .i32⟩
  | 55 => ⟨S8x1x1, .i32⟩
  | 56 => ⟨S_, .i32⟩
  | 57 => ⟨S8x1x1, .i32⟩
  | 58 => ⟨S8x1x1, .i32⟩
  | 59 => ⟨S8x640x640, .i32⟩
  | 60 => ⟨S8x640x640, .i32⟩
  | 61 => ⟨S3276800, .i32⟩
  | 62 => ⟨S_, .f32⟩
  | 63 => ⟨S8x640x640, .f32⟩
  | 64 => ⟨S8x640x640, .f32⟩
  | 65 => ⟨S8x640x640, .f32⟩
  | 66 => ⟨S3276800, .f32⟩
  | 67 => ⟨S_, .f32⟩
  | 68 => ⟨S8x640x640, .f32⟩
  | 69 => ⟨S8x640x640, .f32⟩
  | 70 => ⟨S8x640x640, .f32⟩
  | 71 => ⟨S3276800, .f32⟩
  | 72 => ⟨S_, .f32⟩
  | 73 => ⟨S3276800, .f32⟩
  | 74 => ⟨S_, .f32⟩
  | 75 => ⟨S128, .f32⟩
  | 76 => ⟨S3276800x1, .i32⟩
  | 77 => ⟨S128, .f32⟩
  | 78 => ⟨S8x16, .f32⟩
  | 79 => ⟨S_, .f32⟩
  | 80 => ⟨S128, .f32⟩
  | 81 => ⟨S3276800x1, .i32⟩
  | 82 => ⟨S128, .f32⟩
  | 83 => ⟨S8x16, .f32⟩
  | 84 => ⟨S_, .f32⟩
  | 85 => ⟨S128, .f32⟩
  | 86 => ⟨S3276800x1, .i32⟩
  | 87 => ⟨S128, .f32⟩
  | 88 => ⟨S8x16, .f32⟩
  | 89 => ⟨S_, .f32⟩
  | 90 => ⟨S8x16, .f32⟩
  | 91 => ⟨S8x16, .i1⟩
  | 92 => ⟨S_, .f32⟩
  | 93 => ⟨S_, .f32⟩
  | 94 => ⟨S8x16, .f32⟩
  | 95 => ⟨S8x16, .f32⟩
  | 96 => ⟨S8x16, .f32⟩
  | 97 => ⟨S8x16, .f32⟩
  | 98 => ⟨S8x16, .f32⟩
  | 99 => ⟨S8x16, .f32⟩
  | 100 => ⟨S_, .f32⟩
  | 101 => ⟨S8x16, .f32⟩
  | 102 => ⟨S8x16, .f32⟩
  | 103 => ⟨S_, .f32⟩
  | 104 => ⟨S_, .f32⟩
  | 105 => ⟨S8x16, .f32⟩
  | 106 => ⟨S8x16, .f32⟩
  | 107 => ⟨S8x16, .i32⟩
  | 108 => ⟨S_, .i32⟩
  | 109 => ⟨S8, .i32⟩
  | 110 => ⟨S8, .f32⟩
  | 111 => ⟨S_, .f32⟩
  | 112 => ⟨S8, .f32⟩
  | 113 => ⟨S8, .f32⟩
  | 114 => ⟨S_, .f32⟩
  | 115 => ⟨S_, .f32⟩
  | 116 => ⟨S_, .f32⟩
  | 117 => ⟨S_, .f32⟩
  | 118 => ⟨S_, .f32⟩
  | 119 => ⟨S8x640x640, .f32⟩
  | 120 => ⟨S8x640x640, .i1⟩
  | 121 => ⟨S8x640x640, .f32⟩
  | 122 => ⟨S_, .f32⟩
  | 123 => ⟨S8x640x640, .f32⟩
  | 124 => ⟨S8x640x640, .i1⟩
  | 125 => ⟨S8x640x640, .f32⟩
  | 126 => ⟨S8x640x640, .f32⟩
  | 127 => ⟨S_, .f32⟩
  | _ => ⟨S8x2x640x640, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S8x640x640, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | _ => ⟨S8x2x640x640, .f32⟩

abbrev hbmTy (i : Nat) : BufTy := match i / 128 with
  | 0 => hbmTy0_0 i
  | 1 => hbmTy0_1 i
  | _ => ⟨S8x2x640x640, .f32⟩

abbrev bufTy : (tb : Table) → Fin (tcTables nBuf tb) → BufTy
  | .hbm, ⟨i, _⟩ => hbmTy i
  | _, _ => ⟨S8x2x640x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_call1_v0 : Ref sig .tc := ⟨.hbm, 18, rfl⟩
abbrev main_call1_v1 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_call2_v0 : Ref sig .tc := ⟨.hbm, 31, rfl⟩
abbrev main_call2_v1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_call3_v0 : Ref sig .tc := ⟨.hbm, 37, rfl⟩
abbrev main_call3_v1 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_cst_10 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_12 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_13 : Ref sig .tc := ⟨.hbm, 89, rfl⟩
abbrev main_v61 : Ref sig .tc := ⟨.hbm, 90, rfl⟩
abbrev main_v62 : Ref sig .tc := ⟨.hbm, 91, rfl⟩
abbrev main_cst_14 : Ref sig .tc := ⟨.hbm, 92, rfl⟩
abbrev main_call4_v0 : Ref sig .tc := ⟨.hbm, 93, rfl⟩
abbrev main_call4_v1 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_15 : Ref sig .tc := ⟨.hbm, 100, rfl⟩
abbrev main_v68 : Ref sig .tc := ⟨.hbm, 101, rfl⟩
abbrev main_v69 : Ref sig .tc := ⟨.hbm, 102, rfl⟩
abbrev main_cst_16 : Ref sig .tc := ⟨.hbm, 103, rfl⟩
abbrev main_call5_v0 : Ref sig .tc := ⟨.hbm, 104, rfl⟩
abbrev main_call5_v1 : Ref sig .tc := ⟨.hbm, 105, rfl⟩
abbrev main_v70 : Ref sig .tc := ⟨.hbm, 106, rfl⟩
abbrev main_v71 : Ref sig .tc := ⟨.hbm, 107, rfl⟩
abbrev main_c_17 : Ref sig .tc := ⟨.hbm, 108, rfl⟩
abbrev main_v72 : Ref sig .tc := ⟨.hbm, 109, rfl⟩
abbrev main_v73 : Ref sig .tc := ⟨.hbm, 110, rfl⟩
abbrev main_cst_18 : Ref sig .tc := ⟨.hbm, 111, rfl⟩
abbrev main_v74 : Ref sig .tc := ⟨.hbm, 112, rfl⟩
abbrev main_v75 : Ref sig .tc := ⟨.hbm, 113, rfl⟩
abbrev main_cst_19 : Ref sig .tc := ⟨.hbm, 114, rfl⟩
abbrev main_v76 : Ref sig .tc := ⟨.hbm, 115, rfl⟩
abbrev main_cst_20 : Ref sig .tc := ⟨.hbm, 116, rfl⟩
abbrev main_v77 : Ref sig .tc := ⟨.hbm, 117, rfl⟩
abbrev main_cst_21 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_cst_22 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_cst_23 : Ref sig .tc := ⟨.hbm, 127, rfl⟩
abbrev main_v85 : Ref sig .tc := ⟨.hbm, 128, rfl⟩
abbrev main_cst_24 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_cst_25 : Ref sig .tc := ⟨.hbm, 133, rfl⟩
abbrev main_v89 : Ref sig .tc := ⟨.hbm, 134, rfl⟩
abbrev main_cst_26 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_cst_27 : Ref sig .tc := ⟨.hbm, 139, rfl⟩
abbrev main_v93 : Ref sig .tc := ⟨.hbm, 140, rfl⟩
abbrev main_cst_28 : Ref sig .tc := ⟨.hbm, 141, rfl⟩
abbrev main_v94 : Ref sig .tc := ⟨.hbm, 142, rfl⟩
abbrev main_v95 : Ref sig .tc := ⟨.hbm, 143, rfl⟩
abbrev main_cst_29 : Ref sig .tc := ⟨.hbm, 144, rfl⟩
abbrev main_v96 : Ref sig .tc := ⟨.hbm, 145, rfl⟩
abbrev main_v97 : Ref sig .tc := ⟨.hbm, 146, rfl⟩

abbrev nD : Nat := 1
abbrev τ : Topo := Topo.v7x

variable {F : FTy → Type} [FloatOps F]

class Facts₀ : Prop where
  slices_S8x2x640x640_S8x1x640x640_0_0_0_0 : S8x2x640x640.Slices ![0, 0, 0, 0] S8x1x640x640
  shapeCasts_S8x1x640x640_S8x640x640 : S8x1x640x640.ShapeCasts S8x640x640
  slices_S8x2x640x640_S8x1x640x640_0_1_0_0 : S8x2x640x640.Slices ![0, 1, 0, 0] S8x1x640x640
  bcast_S_S8x640x640 : S_.BroadcastsInDim S8x640x640 (![] : Fin 0 → Fin S8x640x640.rank)
  reducesTo_S8x640x640_S_d0_1_2 : S8x640x640.ReducesTo [0, 1, 2] S_
  h_S_ : 0 < S_.numel
  bcast_S8_S8x1x1_0 : S8.BroadcastsInDim S8x1x1 (![0] : Fin 1 → Fin S8x1x1.rank)
  bcast_S_S8x1x1 : S_.BroadcastsInDim S8x1x1 (![] : Fin 0 → Fin S8x1x1.rank)
  bcast_S8x1x1_S8x640x640_0_1_2 : S8x1x1.BroadcastsInDim S8x640x640 (![0, 1, 2] : Fin 3 → Fin S8x640x640.rank)
  shapeCasts_S8x640x640_S3276800 : S8x640x640.ShapeCasts S3276800
  bcast_S_S3276800 : S_.BroadcastsInDim S3276800 (![] : Fin 0 → Fin S3276800.rank)
  bcast_S_S128 : S_.BroadcastsInDim S128 (![] : Fin 0 → Fin S128.rank)
  bcast_S3276800_S3276800x1_0 : S3276800.BroadcastsInDim S3276800x1 (![0] : Fin 1 → Fin S3276800x1.rank)
  shapeCasts_S128_S8x16 : S128.ShapeCasts S8x16
  bcast_S_S8x16 : S_.BroadcastsInDim S8x16 (![] : Fin 0 → Fin S8x16.rank)
  natLt_1_32 : 1 < 32
  reducesTo_S8x16_S8_d1 : S8x16.ReducesTo [1] S8
  reducesTo_S8_S_d0 : S8.ReducesTo [0] S_
  scatter_S128_S3276800x1_S3276800_n_0_0_1_wf : ScatterDims.WF S128 S3276800x1 S3276800 [] [0] [0] 1

variable [Facts₀]

def scatter_S128_S3276800x1_S3276800_n_0_0_1 : ScatterDims S128 S3276800x1 S3276800 where
  updateWindowDims := []
  insertedWindowDims := [0]
  scatterDimsToOperandDims := [0]
  indexVectorDim := 1
  wf := scatter_S128_S3276800x1_S3276800_n_0_0_1_wf

class Facts : Prop extends Facts₀ where

variable [Facts]
-- ==== Proof.Spec.lean ====
/-
  What both programs compute, as one function of the four input arrays.

  Per sample (a 640 × 640 plane) the data are two prediction planes `f1`, `f2`, a confidence mask `fc`, an overlap mask
  `fo` (both valued in {0, 1}) and a plane `fi` of instance ids below 16. With `bce p t` the binary cross-entropy of a
  prediction `p` against a hard target `t`, its two logarithms clipped below at −100, the per-sample statistics are
    • `andPos`  = Σ bce(f1·f2, fo) · fc          • `andNeg` = Σ bce(f1·f2, fo) · (1 − fc)
    • `nPos`    = Σ fc                            • `nNeg`   = Σ (1 − fc)
    • `orSum`   = Σ bce(max f1 f2, fc)
    • `instTerm`: over the ids k < 16 that occur in the plane, the mean of 1 − |(Σ_{id = k} d) / #{id = k}|, where
      d = (max f1 (f1·f2·fo) − 1)² − (max f2 (f1·f2·fo) − 1)².
  The result is  ½·(Σ_b andPos / Σ_b nPos + Σ_b andNeg / Σ_b nNeg) + ¼·(Σ_b orSum / 3276800) + ¼·(Σ_b instTerm / 8).
-/
import Idealize.ShloMosaic.PureOps.Ideal
import Idealize.ShloMosaic.Lib.ValueIdx

noncomputable section

namespace Cert.Spec

open Idealize.ShloMosaic Idealize.ShloMosaic.ValueIdx

/-- A 640 × 640 plane of extended reals, and one of index words. -/
abbrev Plane := Fin 640 → Fin 640 → EReal
abbrev IPlane := Fin 640 → Fin 640 → BitVec 32

/-- The sum over a plane. -/
def psum (f : Plane) : EReal := ∑ r : Fin 640, ∑ c : Fin 640, f r c

/-- The clipping level −100 (the f32 pattern both programs carry). -/
def m100 : EReal := Ideal.ofBits .f32 0xC2C80000#32

/-- log x and log (1 − x), clipped below at −100. -/
def clog (x : EReal) : EReal := max m100 (Ideal.log x)
def clog1m (x : EReal) : EReal := max m100 (Ideal.log1p (-x))

/-- Binary cross-entropy of `p` against a hard target `t`. -/
def bce (p t : EReal) : EReal := if t = 1 then -(clog p) else -(clog1m p)

section PerSample

variable (f1 f2 fc fo : Plane) (fi : IPlane)

/-- What is known of one sample's planes: finite predictions, binary masks, ids below 16. -/
structure HypB : Prop where
  fin1 : ∀ r c, ∃ x : ℝ, f1 r c = (x : EReal)
  fin2 : ∀ r c, ∃ x : ℝ, f2 r c = (x : EReal)
  binC : ∀ r c, fc r c = 0 ∨ fc r c = 1
  binO : ∀ r c, fo r c = 0 ∨ fo r c = 1
  rngI : ∀ r c, (fi r c).toNat < 16

/-- The cross-entropy plane of the product of the predictions against the overlap mask. -/
def amap : Plane := fun r c => bce (f1 r c * f2 r c) (fo r c)

def andPos : EReal := psum fun r c => amap f1 f2 fo r c * fc r c
def andNeg : EReal := psum fun r c => amap f1 f2 fo r c * (1 - fc r c)
def nPos : EReal := psum fc
def nNeg : EReal := psum fun r c => 1 - fc r c
def orSum : EReal := psum fun r c => bce (max (f1 r c) (f2 r c)) (fc r c)

/-- The difference of the two squared errors at a pixel. -/
def dmap : Plane := fun r c =>
  (max (f1 r c) (f1 r c * f2 r c * fo r c) - 1) * (max (f1 r c) (f1 r c * f2 r c * fo r c) - 1)
    - (max (f2 r c) (f1 r c * f2 r c * fo r c) - 1) * (max (f2 r c) (f1 r c * f2 r c * fo r c) - 1)

/-- How many pixels carry id `k`, and the sum of `dmap` over them. -/
def cnt (k : Fin 16) : EReal := psum fun r c => if (fi r c).toNat = k.val then (1 : EReal) else 0
def dsum (k : Fin 16) : EReal := psum fun r c => if (fi r c).toNat = k.val then dmap f1 f2 fo r c else 0

/-- Id `k`'s term, and whether it occurs. -/
def perKey (k : Fin 16) : EReal :=
  if 0 < cnt fi k then 1 - max (Ideal.div (dsum f1 f2 fo fi k) (cnt fi k)) (-(Ideal.div (dsum f1 f2 fo fi k) (cnt fi k))) else 0
def present (k : Fin 16) : EReal := if 0 < cnt fi k then 1 else 0

def instTerm : EReal := Ideal.div (∑ k : Fin 16, perKey f1 f2 fo fi k) (∑ k : Fin 16, present fi k)

end PerSample

/-! ## The whole batch -/

abbrev SP : Shape := ⟨4, ![8, 2, 640, 640]⟩
abbrev SM : Shape := ⟨3, ![8, 640, 640]⟩

section Batch

variable (P : SP.Idx → EReal) (C O : SM.Idx → EReal) (I : SM.Idx → BitVec 32)

/-- Sample `b`'s planes. -/
def pl1 (b : Fin 8) : Plane := fun r c => P (ix4 b (0 : Fin 2) r c)
def pl2 (b : Fin 8) : Plane := fun r c => P (ix4 b (1 : Fin 2) r c)
def plC (b : Fin 8) : Plane := fun r c => C (ix3 b r c)
def plO (b : Fin 8) : Plane := fun r c => O (ix3 b r c)
def plI (b : Fin 8) : IPlane := fun r c => I (ix3 b r c)

/-- What is known of the inputs. -/
structure Hyp : Prop where
  finP : ∀ j, ∃ x : ℝ, P j = (x : EReal)
  binC : ∀ j, C j = 0 ∨ C j = 1
  binO : ∀ j, O j = 0 ∨ O j = 1
  rngI : ∀ j, (I j).toNat < 16

theorem Hyp.sample {P : SP.Idx → EReal} {C O : SM.Idx → EReal} {I : SM.Idx → BitVec 32} (h : Hyp P C O I) (b : Fin 8) :
    HypB (pl1 P b) (pl2 P b) (plC C b) (plO O b) (plI I b) :=
  ⟨fun _ _ => h.finP _, fun _ _ => h.finP _, fun _ _ => h.binC _, fun _ _ => h.binO _, fun _ _ => h.rngI _⟩

/-- The six batch sums. -/
def T0 : EReal := ∑ b : Fin 8, andPos (pl1 P b) (pl2 P b) (plC C b) (plO O b)
def T1 : EReal := ∑ b : Fin 8, andNeg (pl1 P b) (pl2 P b) (plC C b) (plO O b)
def T2 : EReal := ∑ b : Fin 8, nPos (plC C b)
def T3 : EReal := ∑ b : Fin 8, nNeg (plC C b)
def T4 : EReal := ∑ b : Fin 8, orSum (pl1 P b) (pl2 P b) (plC C b)
def T5 : EReal := ∑ b : Fin 8, instTerm (pl1 P b) (pl2 P b) (plO O b) (plI I b)

end Batch

/-- How the six sums are combined (the four f32 patterns are ½, ¼, 3276800 and 8). -/
def combine (a0 a1 a2 a3 a4 a5 : EReal) : EReal :=
  (Ideal.ofBits .f32 0x3F000000#32 * (Ideal.div a0 a2 + Ideal.div a1 a3)
      + Ideal.ofBits .f32 0x3E800000#32 * Ideal.div a4 (Ideal.ofBits .f32 0x4A480000#32))
    + Ideal.ofBits .f32 0x3E800000#32 * Ideal.div a5 (Ideal.ofBits .f32 0x41000000#32)

/-- The loss. -/
def loss (P : SP.Idx → EReal) (C O : SM.Idx → EReal) (I : SM.Idx → BitVec 32) : EReal :=
  combine (T0 P C O) (T1 P C O) (T2 C) (T3 C) (T4 P C) (T5 P O I)

end Cert.Spec

end
-- ==== Proof.Pre.lean ====
/-
  The precondition read back: when the printed predicate is all ones, the predictions are finite, the two masks take
  only the values 0 and 1, and every instance id is below 16.
-/
import proofs.«404552_j11441792876694_3_alg».proof.Pre_finite_inputs
import proofs.«404552_j11441792876694_3_alg».proof.Proof.Spec
import Idealize.ShloMosaic.Lib.ReduceAll
import Idealize.ShloMosaic.Lib.StableHlo.Predicate

noncomputable section

namespace Cert.PreRead

open Idealize.ShloMosaic Idealize.ShloMosaic.ValueIdx Cert.Pre_finite_inputs

/-- The rank-0 shape has one index. -/
instance : Subsingleton S_.Idx := ⟨fun a b => funext fun d => d.elim0⟩

/-- The pattern 0x7F800000 denotes +∞, 0x00000000 denotes 0, 0x3F800000 denotes 1. -/
theorem ofBits_inf : Ideal.ofBits .f32 0x7F800000#32 = ⊤ := by
  simp [Ideal.ofBits, Ideal.ieee]

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

/-- |x| < +∞ leaves only the reals: at −∞ and at +∞ the absolute value max x (−x) is +∞. -/
theorem finite_of_abs_lt (x : EReal) (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | coe r => exact ⟨r, rfl⟩
  | top => simp [Ideal.cmp] at h

/-- The ordered-equal comparison is 1 exactly at equal arguments. -/
theorem oeq_iff (a b : EReal) : Ideal.cmp .oeq a b = 1#1 ↔ a = b := by
  simp only [Ideal.cmp, StableHlo.Predicate.ofBool_eq_one_iff, decide_eq_true_eq]

/-- (x == 0) | (x == 1) being 1 says x is 0 or 1. -/
theorem binary_of_or (x : EReal)
    (h : IntOp.ori (Ideal.cmp .oeq x (Ideal.ofBits .f32 0x00000000#32)) (Ideal.cmp .oeq x (Ideal.ofBits .f32 0x3F800000#32)) = 1#1) :
    x = 0 ∨ x = 1 := by
  rw [IntOp.ori_eq_one, oeq_iff, oeq_iff, ofBits_zero, ofBits_one] at h
  exact h

/-- A word w with 0 ≤ w < 16 as signed integers is below 16 as a natural number. -/
theorem lt16_of_range (w : BitVec 32)
    (h : IntOp.andi (IntOp.cmpi .sge w 0#32) (IntOp.cmpi .slt w 16#32) = 1#1) : w.toNat < 16 := by
  rw [IntOp.andi_eq_one, IntOp.cmpi_sge, IntOp.cmpi_slt] at h
  obtain ⟨h0, h16⟩ := h
  have e0 : (0#32 : BitVec 32).toInt = 0 := by decide
  have e16 : (16#32 : BitVec 32).toInt = 16 := by decide
  rw [e0] at h0
  rw [e16] at h16
  have hlt := w.isLt
  rw [BitVec.toInt_eq_toNat_cond] at h0 h16
  split at h0 <;> omega

/-- A conjunction of two rank-0 bits, read at the one index. -/
theorem andi_ix0 (a b : IVec S_ 1) : andi a b ix0 = 1#1 ↔ a ix0 = 1#1 ∧ b ix0 = 1#1 := IntOp.andi_eq_one

theorem hyp_of_pre [Cert.Pre_finite_inputs.Facts] (x0 : FVec Ideal S8x2x640x640 .f32) (x1 : FVec Ideal S8x640x640 .f32)
    (x2 : IVec S8x640x640 32) (x3 : FVec Ideal S8x640x640 .f32) (x4 : IVec S8 32)
    (h : Cert.Pre_finite_inputs.fn (F := Ideal) x0 x1 x2 x3 x4 = (fun _ => 1#1)) :
    Cert.Spec.Hyp x0 x1 x3 x2 := by
  have e := congrFun h ValueIdx.ix0
  unfold Cert.Pre_finite_inputs.fn Cert.Pre_finite_inputs.fn_part1 Cert.Pre_finite_inputs.fn_part2 at e
  dsimp only at e
  -- the six conjuncts, each an all-reduction that came out 1
  simp only [andi_ix0] at e
  obtain ⟨⟨⟨⟨⟨h0, h1⟩, h3⟩, hC⟩, hO⟩, hI⟩ := e
  refine ⟨fun j => ?_, fun j => ?_, fun j => ?_, fun j => ?_⟩
  · exact finite_of_abs_lt _ (Host.reduce_andi_all _ _ _ _ _ h0 j)
  · exact binary_of_or _ (Host.reduce_andi_all _ _ _ _ _ hC j)
  · exact binary_of_or _ (Host.reduce_andi_all _ _ _ _ _ hO j)
  · exact lt16_of_range _ (Host.reduce_andi_all _ _ _ _ _ hI j)

end Cert.PreRead

end
-- ==== Proof.Body.lean ====
/-
  The value the kernel's body stores, as one function of the five blocks it loads — the two prediction planes, the
  confidence and overlap masks and the plane of instance ids —, and the host's last lines as one function of the
  array of per-sample statistics. The fifteen-trip loop over the instance ids is the fold of its yield.
-/
import proofs.«404552_j11441792876694_3_alg».proof.Proof.Gen.KernelIdeal.Skeleton
import proofs.«404552_j11441792876694_3_alg».proof.Proof.Spec
import Idealize.ShloMosaic.Lib.Exec

noncomputable section

namespace Cert.KernelIdeal.Body

open Idealize.ShloMosaic Idealize.ShloMosaic.ValueIdx Cert.KernelIdeal Cert.KernelIdeal.Gen

variable {F : FTy → Type} [FloatOps F]

/-- The four running sums the loop carries: the per-id terms, the number of ids seen, the counts, the masked sums. -/
abbrev Carry (F : FTy → Type) : Type := FVec F S1x1 .f32 × FVec F S1x1 .f32 × FVec F S1x1 .f32 × FVec F S1x1 .f32

/-- One trip of the loop: id `k`'s count and masked sum of the difference plane `v69` added to the running sums. -/
def loopStep (v69 : FVec F S640x640 .f32) (v75 : IVec S640x640 32) (k : Fin k0_t1_loop.trips) (a : Carry F) : Carry F :=
  (k0_pay21 v69 v75 k a.1, k0_pay22 (F := F) v75 k a.2.1, k0_pay23 (F := F) v75 k a.2.2.1, k0_pay24 v69 v75 k a.2.2.2)

/-- The zeroed running sum. -/
def zero11 : FVec F S1x1 .f32 := k0_pay16 (Scalar.ofBits .f32 0x00000000#32)

/-- The loop's result from zeroed sums. -/
def loopOut (v69 : FVec F S640x640 .f32) (v75 : IVec S640x640 32) : Carry F :=
  Scf.fold (loopStep v69 v75) (zero11, zero11, zero11, zero11)

/-- The per-sample instance term: the fifteen ids of the loop, the sixteenth by complement, the mean over the ids seen. -/
def instVal (v1 v3 v7 v8 : FVec F S640x640 .f32) (v75 : IVec S640x640 32) : FVec F S1x1 .f32 :=
  k0_pay25 (k0_pay14 v1 v3 v7 v8) (loopOut (k0_pay13 v1 v3 v7 v8) v75).1 (loopOut (k0_pay13 v1 v3 v7 v8) v75).2.1
    (loopOut (k0_pay13 v1 v3 v7 v8) v75).2.2.1 (loopOut (k0_pay13 v1 v3 v7 v8) v75).2.2.2

/-- The 128 lanes the body stores, from the blocks it loads: `v0`, `v2` the prediction planes, `v4` the confidence
    mask, `v6` the overlap mask, `v74` the instance ids. -/
def blockVal (v0 v2 : Vec F S1x1x640x640 .f32) (v4 v6 : Vec F S1x640x640 .f32) (v74 : Vec F S1x640x640 .i32) :
    FVec F S1x1x128 .f32 :=
  k0_pay1 (k0_pay11 (k0_pay4 v4)) (k0_pay12 (k0_pay2 v0) (k0_pay3 v2) (k0_pay4 v4))
    (instVal (k0_pay2 v0) (k0_pay3 v2) (k0_pay5 v6) (k0_pay6 v0 v2) (k0_pay15 v74))
    (iota .tc S1x128 32 [1] iota_S1x128_d1_w32)
    (k0_pay26 (k0_pay8 v0 v2 v4 v6) (k0_pay9 v0 v2 v4 v6) (k0_pay10 (k0_pay4 v4))) k0_pay27

/-! ## The planes of a sample, as the specification reads them -/

/-- A loaded [1, 1, 640, 640] block as a plane; a loaded [1, 640, 640] block as a plane; the same of index words. -/
def plA (v : Vec Ideal S1x1x640x640 .f32) : Cert.Spec.Plane := fun r c => v (ix4 (0 : Fin 1) (0 : Fin 1) r c)
def plB (v : Vec Ideal S1x640x640 .f32) : Cert.Spec.Plane := fun r c => v (ix3 (0 : Fin 1) r c)
def plW (v : Vec Ideal S1x640x640 .i32) : Cert.Spec.IPlane := fun r c => v (ix3 (0 : Fin 1) r c)

/-! ## The host's lines after the call -/

/-- Column `off 1` of the [8, 128] array of statistics, summed over the eight samples. -/
def laneSum (A1 : FVec F S8x128 .f32) (off : Fin 2 → Nat) (hs : S8x128.Slices off S8x1) : FVec F S_ .f32 :=
  Host.reduceAdd (shapeCast S8 (extractStridedSlice S8x1 off A1 hs) shapeCasts_S8x1_S8) (constant S_ .f32 0x00000000#32)
    reducesTo_S8_S_d0 h_S_

/-- The scalar the host computes from the [8, 1, 128] array the call returns. -/
def hostTail (A : FVec F S8x1x128 .f32) : FVec F S_ .f32 :=
  addf
    (addf
      (mulf (constant S_ .f32 0x3F000000#32)
        (addf
          (Host.divf (laneSum (shapeCast S8x128 A shapeCasts_S8x1x128_S8x128) ![0, 0] slices_S8x128_S8x1_0_0)
            (laneSum (shapeCast S8x128 A shapeCasts_S8x1x128_S8x128) ![0, 2] slices_S8x128_S8x1_0_2))
          (Host.divf (laneSum (shapeCast S8x128 A shapeCasts_S8x1x128_S8x128) ![0, 1] slices_S8x128_S8x1_0_1)
            (laneSum (shapeCast S8x128 A shapeCasts_S8x1x128_S8x128) ![0, 3] slices_S8x128_S8x1_0_3))))
      (mulf (constant S_ .f32 0x3E800000#32)
        (Host.divf (laneSum (shapeCast S8x128 A shapeCasts_S8x1x128_S8x128) ![0, 4] slices_S8x128_S8x1_0_4)
          (constant S_ .f32 0x4A480000#32))))
    (mulf (constant S_ .f32 0x3E800000#32)
      (Host.divf (laneSum (shapeCast S8x128 A shapeCasts_S8x1x128_S8x128) ![0, 5] slices_S8x128_S8x1_0_5)
        (constant S_ .f32 0x41000000#32)))

/-! ## The array of statistics the call returns -/

/-- Sample `b`'s blocks of the four arrays the call reads. -/
def blkP (x : FVec F S8x2x640x640 .f32) (b : Fin 8) (k : Fin 2) : Vec F S1x1x640x640 .f32 :=
  fun y => x (ix4 b k (y 2) (y 3))
def blkM (x : FVec F S8x640x640 .f32) (b : Fin 8) : Vec F S1x640x640 .f32 := fun y => x (ix3 b (y 1) (y 2))
def blkI (x : IVec S8x640x640 32) (b : Fin 8) : Vec F S1x640x640 .i32 := fun y => x (ix3 b (y 1) (y 2))

/-- The [8, 1, 128] array: sample `b`'s row is what the body stores from sample `b`'s blocks. -/
def statsArr (xP : FVec F S8x2x640x640 .f32) (xC : FVec F S8x640x640 .f32) (xO : FVec F S8x640x640 .f32)
    (xI : IVec S8x640x640 32) : FVec F S8x1x128 .f32 :=
  fun j => blockVal (blkP xP (j 0) 0) (blkP xP (j 0) 1) (blkM xC (j 0)) (blkM xO (j 0)) (blkI (F := F) xI (j 0))
    (ix3 (0 : Fin 1) (0 : Fin 1) (j 2))

end Cert.KernelIdeal.Body

end
-- ==== Proof.KerFrame.lean ====
/-
  The kernel's run with its result named: the call leaves, in sample b's row of its [8, 1, 128] result, what the body
  stores from sample b's blocks, and the host's last lines make the scalar of that array.
-/
import proofs.«404552_j11441792876694_3_alg».proof.Proof.Gen.KernelIdeal.Frame
import proofs.«404552_j11441792876694_3_alg».proof.Proof.Body
import Idealize.ShloMosaic.Lib.Pipeline.Value
import Idealize.ShloMosaic.Lib.StableHlo.Run

noncomputable section

namespace Cert.KernelIdeal.Body

open Idealize.ShloMosaic Idealize.ShloMosaic.ValueIdx Idealize.ShloMosaic.TcCoe Idealize.SL.Sem Cert.KernelIdeal Cert.KernelIdeal.Gen
open Idealize.ShloMosaic.Tactic

variable {F : FTy → Type} [FloatOps F]

namespace KerFrame

/-! ## What one grid point stores -/

theorem zeros3 : (![0, 0, 0] : Fin 3 → Nat) = fun _ => 0 := funext fun a => by fin_cases a <;> rfl

/-- The two prediction planes of a loaded [1, 2, 640, 640] block: its rows 0 and 1 along the second axis. -/
abbrev plane0 (x0 : Vec F S1x2x640x640 .f32) : Vec F S1x1x640x640 .f32 :=
  View.ld x0 (Rect.unit (s := S1x2x640x640) ![0, 0, 0, 0] S1x1x640x640.size inb_S1x2x640x640_S1x1x640x640_0_0_0_0)
abbrev plane1 (x0 : Vec F S1x2x640x640 .f32) : Vec F S1x1x640x640 .f32 :=
  View.ld x0 (Rect.unit (s := S1x2x640x640) ![0, 1, 0, 0] S1x1x640x640.size inb_S1x2x640x640_S1x1x640x640_0_1_0_0)

/-- The body's one store covers its [1, 1, 128] block, so the block ends holding that store's payload: `blockVal` of the
    two planes of the first block and of the three other blocks, the loop being the fold of its yield. -/
theorem stored_eq (c : Dev nD) (i : grid0.Coords) (arg1 : Memref sig .tc .vmem S1x2x640x640 .f32) (harg1 : arg1.IsWhole) (arg2 : Memref sig .tc .vmem S1x640x640 .f32) (harg2 : arg2.IsWhole) (arg3 : Memref sig .tc .vmem S1x640x640 .f32) (harg3 : arg3.IsWhole) (arg4 : Memref sig .tc .vmem S1x640x640 .i32) (harg4 : arg4.IsWhole) (arg5 : Memref sig .tc .vmem S1x1x128 .f32) (harg5 : arg5.IsWhole)
    (x0 : Vec F S1x2x640x640 .f32) (x1 : Vec F S1x640x640 .f32) (x2 : Vec F S1x640x640 .f32) (x3 : Vec F S1x640x640 .i32) :
    out0_A_4 c i arg1 harg1 arg2 harg2 arg3 harg3 arg4 harg4 arg5 harg5 x0 x1 x2 x3 = blockVal (plane0 x0) (plane1 x0) x1 x2 x3 := by
  unfold out0_A_4
  rw [View.read_writes_eq_canon _ _ _ (cover0_A_4 c i arg1 harg1 arg2 harg2 arg3 harg3 arg4 harg4 arg5 harg5 x0 x1 x2 x3)]
  unfold kernelRun0_A
  dsimp only
  sl_unfold_words
  rw [View.canon_unit_zero zeros3]
  simp only [View.readAt_eq_ld, harg1.read_unread, harg2.read_unread, harg3.read_unread, harg4.read_unread, View.ld_unit_zero (S := S1x640x640) zeros3]
  rfl

/-! ## The blocks a grid point reads -/

variable (m : (ℓ : Loc nD τ sig) → Buf (Elt F) ℓ)

/-- The four arrays the call reads, as the launch finds them. -/
abbrev arrP (c : Dev nD) : FVec F S8x2x640x640 .f32 := m ((c.tc : Thread nD τ).loc main_arg0)
abbrev arrC (c : Dev nD) : FVec F S8x640x640 .f32 := m ((c.tc : Thread nD τ).loc main_arg1)
abbrev arrO (c : Dev nD) : FVec F S8x640x640 .f32 := m ((c.tc : Thread nD τ).loc main_arg3)
abbrev arrI (c : Dev nD) : IVec S8x640x640 32 := m ((c.tc : Thread nD τ).loc main_arg2)

/-- Every window's block index at grid point `t` is `t` on the sample axis and 0 on the others. -/
theorem idx_facts : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

/-- The first window's block at point `t`, read at an index, is the prediction array at sample `t`. -/
theorem blockP_apply (c : Dev nD) (t : Fin cfg0.N) (x : S1x2x640x640.Idx) (k : S8x2x640x640.Idx)
    (hk0 : (k 0).val = t.val) (hk1 : (k 1).val = (x 1).val) (hk2 : (k 2).val = (x 2).val) (hk3 : (k 3).val = (x 3).val) :
    (iblk m c 0 t : Vec F S1x2x640x640 .f32) x = arrP m c k := by
  obtain ⟨⟨e0, e1, e2, e3⟩, -⟩ := idx_facts t
  have h0 : (x 0).val < 1 := (x 0).isLt
  unfold iblk
  rw [View.read_apply]
  show V m c main_arg0 _ = m (c.tc.loc main_arg0) _
  unfold V
  congr 1
  funext a
  apply Fin.ext
  match a with
  | ⟨0, _⟩ => show win0_0.index t (0 : Fin 4) * 1 + 1 * (x 0).val = (k 0).val; rw [e0, hk0]; omega
  | ⟨1, _⟩ => show win0_0.index t (1 : Fin 4) * 2 + 1 * (x 1).val = (k 1).val; rw [e1, hk1]; omega
  | ⟨2, _⟩ => show win0_0.index t (2 : Fin 4) * 640 + 1 * (x 2).val = (k 2).val; rw [e2, hk2]; omega
  | ⟨3, _⟩ => show win0_0.index t (3 : Fin 4) * 640 + 1 * (x 3).val = (k 3).val; rw [e3, hk3]; omega

/-- A mask window's block at point `t`, read at an index, is its array at sample `t`. -/
theorem blockC_apply (c : Dev nD) (t : Fin cfg0.N) (x : S1x640x640.Idx) (k : S8x640x640.Idx)
    (hk0 : (k 0).val = t.val) (hk1 : (k 1).val = (x 1).val) (hk2 : (k 2).val = (x 2).val) :
    (iblk m c 1 t : Vec F S1x640x640 .f32) x = arrC m c k := by
  obtain ⟨-, ⟨e0, e1, e2⟩, -⟩ := idx_facts t
  have h0 : (x 0).val < 1 := (x 0).isLt
  unfold iblk
  rw [View.read_apply]
  show V m c main_arg1 _ = m (c.tc.loc main_arg1) _
  unfold V
  congr 1
  funext a
  apply Fin.ext
  match a with
  | ⟨0, _⟩ => show win0_1.index t (0 : Fin 3) * 1 + 1 * (x 0).val = (k 0).val; rw [e0, hk0]; omega
  | ⟨1, _⟩ => show win0_1.index t (1 : Fin 3) * 640 + 1 * (x 1).val = (k 1).val; rw [e1, hk1]; omega
  | ⟨2, _⟩ => show win0_1.index t (2 : Fin 3) * 640 + 1 * (x 2).val = (k 2).val; rw [e2, hk2]; omega

theorem blockO_apply (c : Dev nD) (t : Fin cfg0.N) (x : S1x640x640.Idx) (k : S8x640x640.Idx)
    (hk0 : (k 0).val = t.val) (hk1 : (k 1).val = (x 1).val) (hk2 : (k 2).val = (x 2).val) :
    (iblk m c 2 t : Vec F S1x640x640 .f32) x = arrO m c k := by
  obtain ⟨-, -, ⟨e0, e1, e2⟩, -⟩ := idx_facts t
  have h0 : (x 0).val < 1 := (x 0).isLt
  unfold iblk
  rw [View.read_apply]
  show V m c main_arg3 _ = m (c.tc.loc main_arg3) _
  unfold V
  congr 1
  funext a
  apply Fin.ext
  match a with
  | ⟨0, _⟩ => show win0_2.index t (0 : Fin 3) * 1 + 1 * (x 0).val = (k 0).val; rw [e0, hk0]; omega
  | ⟨1, _⟩ => show win0_2.index t (1 : Fin 3) * 640 + 1 * (x 1).val = (k 1).val; rw [e1, hk1]; omega
  | ⟨2, _⟩ => show win0_2.index t (2 : Fin 3) * 640 + 1 * (x 2).val = (k 2).val; rw [e2, hk2]; omega

theorem blockI_apply (c : Dev nD) (t : Fin cfg0.N) (x : S1x640x640.Idx) (k : S8x640x640.Idx)
    (hk0 : (k 0).val = t.val) (hk1 : (k 1).val = (x 1).val) (hk2 : (k 2).val = (x 2).val) :
    (iblk m c 3 t : Vec F S1x640x640 .i32) x = arrI m c k := by
  obtain ⟨-, -, -, ⟨e0, e1, e2⟩, -⟩ := idx_facts t
  have h0 : (x 0).val < 1 := (x 0).isLt
  unfold iblk
  rw [View.read_apply]
  show V m c main_arg2 _ = m (c.tc.loc main_arg2) _
  unfold V
  congr 1
  funext a
  apply Fin.ext
  match a with
  | ⟨0, _⟩ => show win0_3.index t (0 : Fin 3) * 1 + 1 * (x 0).val = (k 0).val; rw [e0, hk0]; omega
  | ⟨1, _⟩ => show win0_3.index t (1 : Fin 3) * 640 + 1 * (x 1).val = (k 1).val; rw [e1, hk1]; omega
  | ⟨2, _⟩ => show win0_3.index t (2 : Fin 3) * 640 + 1 * (x 2).val = (k 2).val; rw [e2, hk2]; omega

/-! ## From the blocks to the array of statistics -/

/-- What the body stores from sample `b`'s blocks of four arrays: row `b` of `statsArr`. -/
def rowVal (xP : FVec F S8x2x640x640 .f32) (xC xO : FVec F S8x640x640 .f32) (xI : IVec S8x640x640 32) (b : Fin 8) :
    FVec F S1x1x128 .f32 :=
  blockVal (blkP xP b 0) (blkP xP b 1) (blkM xC b) (blkM xO b) (blkI (F := F) xI b)

theorem blockVal_congr {v0 v0' v2 v2' : Vec F S1x1x640x640 .f32} {v4 v4' v6 v6' : Vec F S1x640x640 .f32}
    {v74 v74' : Vec F S1x640x640 .i32} (h0 : v0 = v0') (h2 : v2 = v2') (h4 : v4 = v4') (h6 : v6 = v6') (h74 : v74 = v74') :
    blockVal v0 v2 v4 v6 v74 = blockVal v0' v2' v4' v6' v74' := by
  subst h0 h2 h4 h6 h74; rfl

/-- At grid point `t` the body stores row `t` of the statistics: each block it loads is sample `t` of its array. -/
theorem outsAt_eq (c : Dev nD) (t : Fin cfg0.N) (b : Fin 8) (hb : b.val = t.val) :
    outsAt0 m c t = rowVal (arrP m c) (arrC m c) (arrO m c) (arrI m c) b := by
  unfold outsAt0
  refine (stored_eq c (grid0.coords t) (ms0_0 t) (hs0_0 t) (ms0_1 t) (hs0_1 t) (ms0_2 t) (hs0_2 t) (ms0_3 t) (hs0_3 t)
    (ms0_4 t) (hs0_4 t) (iblk m c 0 t) (iblk m c 1 t) (iblk m c 2 t) (iblk m c 3 t)).trans ?_
  unfold rowVal
  refine blockVal_congr (funext fun y => ?_) (funext fun y => ?_) (funext fun y => ?_) (funext fun y => ?_) (funext fun y => ?_)
  · have h0 : (y 1).val < 1 := (y 1).isLt
    refine blockP_apply m c t _ _ hb ?_ ?_ ?_
    · show (0 : Nat) = 0 + 1 * (y 1).val; omega
    · show (y 2).val = 0 + 1 * (y 2).val; omega
    · show (y 3).val = 0 + 1 * (y 3).val; omega
  · have h0 : (y 1).val < 1 := (y 1).isLt
    refine blockP_apply m c t _ _ hb ?_ ?_ ?_
    · show (1 : Nat) = 1 + 1 * (y 1).val; omega
    · show (y 2).val = 0 + 1 * (y 2).val; omega
    · show (y 3).val = 0 + 1 * (y 3).val; omega
  · exact blockC_apply m c t y _ hb rfl rfl
  · exact blockO_apply m c t y _ hb rfl rfl
  · exact blockI_apply m c t y _ hb rfl rfl

/-- The array of statistics read at an index of sample `b`'s row. -/
theorem statsArr_apply (xP : FVec F S8x2x640x640 .f32) (xC xO : FVec F S8x640x640 .f32) (xI : IVec S8x640x640 32)
    (j : S8x1x128.Idx) (b : Fin 8) (y : S1x1x128.Idx) (h0 : (j 0).val = b.val) (h2 : (j 2).val = (y 2).val) :
    statsArr xP xC xO xI j = rowVal xP xC xO xI b y := by
  have e0 : (j 0 : Fin 8) = b := Fin.ext h0
  have ey : ix3 (0 : Fin 1) (0 : Fin 1) (j 2 : Fin 128) = y := by
    funext a
    apply Fin.ext
    match a with
    | ⟨0, _⟩ => have h : (y 0).val < 1 := (y 0).isLt; show (0 : Nat) = (y 0).val; omega
    | ⟨1, _⟩ => have h : (y 1).val < 1 := (y 1).isLt; show (0 : Nat) = (y 1).val; omega
    | ⟨2, _⟩ => exact h2
  show rowVal xP xC xO xI (j 0) (ix3 (0 : Fin 1) (0 : Fin 1) (j 2)) = _
  rw [e0]
  exact congrArg (rowVal xP xC xO xI b) ey

/-- What point `t` writes back is block `t` of the array of statistics. -/
theorem flushed_eq (c : Dev nD) (t : Fin cfg0.N) :
    (dats m 0 c).flushed 4 t
      = ((cfg0.win 4).blk t).view.read (Elt F) (statsArr (arrP m c) (arrC m c) (arrO m c) (arrI m c)) := by
  have hN : cfg0.N = 8 := N_0
  obtain ⟨-, -, -, -, ⟨e0, e1, e2⟩⟩ := idx_facts t
  show (cfg0.win 4).cut (grid0.coords t) ((dats m 0 c).after 4 t) = _
  rw [after0_4, outsAt_eq m c t ⟨t.val, by have := t.isLt; omega⟩ rfl]
  funext y
  rw [View.read_apply]
  refine (statsArr_apply (arrP m c) (arrC m c) (arrO m c) (arrI m c) _ _ y ?_ ?_).symm
  · have h0 : (y 0).val < 1 := (y 0).isLt
    show win0_4.index t (0 : Fin 3) * 1 + 1 * (y 0).val = t.val
    rw [e0]; omega
  · show win0_4.index t (2 : Fin 3) * 128 + 1 * (y 2).val = (y 2).val
    rw [e2]; omega

/-- The eight blocks tile the [8, 1, 128] array (block `t` is row `t`), so after the call the array is the array of
    statistics. -/
theorem final (c : Dev nD) :
    (dats m 0 c).arrAt 4 cfg0.N = statsArr (arrP m c) (arrC m c) (arrO m c) (arrI m c) :=
  (dats m 0 c).arrAt_eq_of_cover 4 (statsArr (arrP m c) (arrC m c) (arrO m c) (arrI m c)) (fun t _ => flushed_eq m c t) fun i => by
    have hN : cfg0.N = 8 := N_0
    have hi0 : (i 0 : Nat) < 8 := (i 0).isLt
    have hi1 : (i 1 : Nat) < 1 := (i 1).isLt
    have hi2 : (i 2 : Nat) < 128 := (i 2).isLt
    obtain ⟨t, ht⟩ : ∃ t : Fin cfg0.N, t.val = (i 0 : Nat) := ⟨⟨(i 0 : Nat), by omega⟩, rfl⟩
    obtain ⟨-, -, -, -, ⟨e0, e1, e2⟩⟩ := idx_facts t
    refine ⟨t, flush0_4 t, ?_⟩
    show i ∈ ((View.whole main_v0).slice (win0_4.rect t)).set
    rw [View.set_slice_whole, Rect.mem_set_unit]
    intro a
    match a with
    | ⟨0, _⟩ =>
      show win0_4.index t (0 : Fin 3) * 1 ≤ (i 0 : Nat) ∧ (i 0 : Nat) < win0_4.index t (0 : Fin 3) * 1 + 1
      rw [e0]; omega
    | ⟨1, _⟩ =>
      show win0_4.index t (1 : Fin 3) * 1 ≤ (i 1 : Nat) ∧ (i 1 : Nat) < win0_4.index t (1 : Fin 3) * 1 + 1
      rw [e1]; omega
    | ⟨2, _⟩ =>
      show win0_4.index t (2 : Fin 3) * 128 ≤ (i 2 : Nat) ∧ (i 2 : Nat) < win0_4.index t (2 : Fin 3) * 128 + 128
      rw [e2]; omega

/-! ## The host's lines after the call, and the run -/

/-- Whatever the buffers hold when the call returns, the host's forty lines leave in the result the scalar `hostTail`
    computes from the [8, 1, 128] array. -/
theorem tail_result (W : Valuation τ sig (Elt F)) :
    StableHlo.after (hostOps1 (F := F)) W (Proc.devRef .tc main_v29) = hostTail (W (Proc.devRef .tc main_v0)) := by
  after_results_simp
  rfl

/-- After the call and the host's lines the result is the scalar of the array of statistics. -/
theorem tail_eq (c : Dev nD) :
    Pipeline.afterTail₀ cfgs (dats m) 0 (V0 m) [hostOps1] c main_v29
      = hostTail (statsArr (arrP m c) (arrC m c) (arrO m c) (arrI m c)) := by
  unfold Pipeline.afterTail₀
  show StableHlo.after hostOps1 _ (Proc.devRef .tc main_v29) = _
  rw [tail_result]
  exact congrArg hostTail ((Pipeline.withArrays_arr spec0 launch0.win.arr_inj c _ _ 4).trans (final m c))

end KerFrame

theorem run_value (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v29)
          = hostTail (statsArr (m ((c.tc : Thread nD τ).loc main_arg0)) (m ((c.tc : Thread nD τ).loc main_arg1))
              (m ((c.tc : Thread nD τ).loc main_arg3)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).2 main_v29 (Pipeline.mem_restRefs_of main_v29 (by decide) (by decide))).trans (KerFrame.tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c))),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c)⟩)
    (run_main m ρ)

end Cert.KernelIdeal.Body

end
-- ==== Proof.Lanes.lean ====
/-
  Reading the 128 stored lanes: lane j < 6 of the body's row is its j-th statistic, and the host's last lines combine
  the six columns' sums over the samples.
-/
import proofs.«404552_j11441792876694_3_alg».proof.Proof.Body
import Idealize.ShloMosaic.Lib.Pipeline.Value
import Idealize.ShloMosaic.Lib.ValueLayout
import Idealize.ShloMosaic.Lib.ValueIdxRank1
import Idealize.ShloMosaic.PureOps.Ideal.Laws

noncomputable section

namespace Cert.KernelIdeal.Body

open Idealize.ShloMosaic Idealize.ShloMosaic.ValueIdx Cert.KernelIdeal Cert.KernelIdeal.Gen

/-! ## The row of masked statistics at a lane -/

/-- A [1, 1] value broadcast along the 128 lanes reads, at every lane, its one element. -/
theorem bcast11_apply (v : FVec Ideal S1x1 .f32) (q : Fin 128) :
    broadcastTo S1x128 (shapeCast S1x1 v shapeCasts_S1x1_S1x1) broadcasts_S1x1_S1x128 (ix2 (0 : Fin 1) q)
      = v (ix2 (0 : Fin 1) (0 : Fin 1)) := by
  rw [shapeCast_self]
  exact broadcastTo_apply v _ _ _ fun a => match a with | ⟨0, _⟩ => rfl | ⟨1, _⟩ => rfl

/-- The lane counter reads, at lane q, the word q. -/
theorem laneIota_apply (q : Fin 128) :
    iota .tc S1x128 32 [1] iota_S1x128_d1_w32 (ix2 (0 : Fin 1) q) = BitVec.ofNat 32 q.val :=
  iota_single_apply .tc S1x128 32 1 iota_S1x128_d1_w32 (ix2 (0 : Fin 1) q)

/-- The statistic x kept at the lane whose number is the word j, zero at every other lane. -/
def pick (q : Fin 128) (j : BitVec 32) (x : Ideal .f32) : Ideal .f32 :=
  Scalar.select (IntOp.cmpi .eq (BitVec.ofNat 32 q.val) j) x 0

/-- The stored row at lane q: the six statistics, each kept at its own lane, added up. -/
theorem row_apply (s0 s1 s2 s3 s4 s5 : FVec Ideal S1x1 .f32) (q : Fin 128) :
    k0_pay1 s3 s4 s5 (iota .tc S1x128 32 [1] iota_S1x128_d1_w32) (k0_pay26 s0 s1 s2) k0_pay27
        (ix3 (0 : Fin 1) (0 : Fin 1) q)
      = pick q 0#32 (s0 (ix2 (0 : Fin 1) (0 : Fin 1))) + pick q 1#32 (s1 (ix2 (0 : Fin 1) (0 : Fin 1)))
          + pick q 2#32 (s2 (ix2 (0 : Fin 1) (0 : Fin 1))) + pick q 3#32 (s3 (ix2 (0 : Fin 1) (0 : Fin 1)))
          + pick q 4#32 (s4 (ix2 (0 : Fin 1) (0 : Fin 1))) + pick q 5#32 (s5 (ix2 (0 : Fin 1) (0 : Fin 1))) := by
  unfold k0_pay1 k0_pay26 k0_pay27
  dsimp only
  rw [shapeCast_ab_1ab_apply]
  simp only [addf_apply, select_apply, broadcast_apply, bcast11_apply, cmpi, Ideal.ofBits_def, Ideal.ofBits_zero_f32]
  rw [laneIota_apply q]
  rfl

/-- At its own lane a kept statistic is the statistic. -/
theorem pick_self (q : Fin 128) (j : BitVec 32) (x : Ideal .f32) (h : BitVec.ofNat 32 q.val = j) : pick q j x = x := by
  unfold pick IntOp.cmpi
  rw [h, beq_self_eq_true]
  exact select_one x 0

/-- At every other lane it is zero. -/
theorem pick_ne (q : Fin 128) (j : BitVec 32) (x : Ideal .f32) (h : BitVec.ofNat 32 q.val ≠ j) : pick q j x = 0 := by
  unfold pick IntOp.cmpi
  rw [beq_eq_false_iff_ne.mpr h]
  exact select_zero x 0

variable (v0 v2 : Vec Ideal S1x1x640x640 .f32) (v4 v6 : Vec Ideal S1x640x640 .f32) (v74 : Vec Ideal S1x640x640 .i32)

theorem blockVal_lane0 : blockVal (F := Ideal) v0 v2 v4 v6 v74 (ix3 (0 : Fin 1) (0 : Fin 1) (0 : Fin 128))
    = k0_pay8 (F := Ideal) v0 v2 v4 v6 (ix2 (0 : Fin 1) (0 : Fin 1)) := by
  unfold blockVal
  rw [row_apply, pick_self (0 : Fin 128) 0#32 _ (by decide), pick_ne (0 : Fin 128) 1#32 _ (by decide),
    pick_ne (0 : Fin 128) 2#32 _ (by decide), pick_ne (0 : Fin 128) 3#32 _ (by decide),
    pick_ne (0 : Fin 128) 4#32 _ (by decide), pick_ne (0 : Fin 128) 5#32 _ (by decide)]
  simp only [add_zero]

theorem blockVal_lane1 : blockVal (F := Ideal) v0 v2 v4 v6 v74 (ix3 (0 : Fin 1) (0 : Fin 1) (1 : Fin 128))
    = k0_pay9 (F := Ideal) v0 v2 v4 v6 (ix2 (0 : Fin 1) (0 : Fin 1)) := by
  unfold blockVal
  rw [row_apply, pick_ne (1 : Fin 128) 0#32 _ (by decide), pick_self (1 : Fin 128) 1#32 _ (by decide),
    pick_ne (1 : Fin 128) 2#32 _ (by decide), pick_ne (1 : Fin 128) 3#32 _ (by decide),
    pick_ne (1 : Fin 128) 4#32 _ (by decide), pick_ne (1 : Fin 128) 5#32 _ (by decide)]
  simp only [add_zero, zero_add]

theorem blockVal_lane2 : blockVal (F := Ideal) v0 v2 v4 v6 v74 (ix3 (0 : Fin 1) (0 : Fin 1) (2 : Fin 128))
    = k0_pay10 (F := Ideal) (k0_pay4 v4) (ix2 (0 : Fin 1) (0 : Fin 1)) := by
  unfold blockVal
  rw [row_apply, pick_ne (2 : Fin 128) 0#32 _ (by decide), pick_ne (2 : Fin 128) 1#32 _ (by decide),
    pick_self (2 : Fin 128) 2#32 _ (by decide), pick_ne (2 : Fin 128) 3#32 _ (by decide),
    pick_ne (2 : Fin 128) 4#32 _ (by decide), pick_ne (2 : Fin 128) 5#32 _ (by decide)]
  simp only [add_zero, zero_add]

theorem blockVal_lane3 : blockVal (F := Ideal) v0 v2 v4 v6 v74 (ix3 (0 : Fin 1) (0 : Fin 1) (3 : Fin 128))
    = k0_pay11 (F := Ideal) (k0_pay4 v4) (ix2 (0 : Fin 1) (0 : Fin 1)) := by
  unfold blockVal
  rw [row_apply, pick_ne (3 : Fin 128) 0#32 _ (by decide), pick_ne (3 : Fin 128) 1#32 _ (by decide),
    pick_ne (3 : Fin 128) 2#32 _ (by decide), pick_self (3 : Fin 128) 3#32 _ (by decide),
    pick_ne (3 : Fin 128) 4#32 _ (by decide), pick_ne (3 : Fin 128) 5#32 _ (by decide)]
  simp only [add_zero, zero_add]

theorem blockVal_lane4 : blockVal (F := Ideal) v0 v2 v4 v6 v74 (ix3 (0 : Fin 1) (0 : Fin 1) (4 : Fin 128))
    = k0_pay12 (F := Ideal) (k0_pay2 v0) (k0_pay3 v2) (k0_pay4 v4) (ix2 (0 : Fin 1) (0 : Fin 1)) := by
  unfold blockVal
  rw [row_apply, pick_ne (4 : Fin 128) 0#32 _ (by decide), pick_ne (4 : Fin 128) 1#32 _ (by decide),
    pick_ne (4 : Fin 128) 2#32 _ (by decide), pick_ne (4 : Fin 128) 3#32 _ (by decide),
    pick_self (4 : Fin 128) 4#32 _ (by decide), pick_ne (4 : Fin 128) 5#32 _ (by decide)]
  simp only [add_zero, zero_add]

theorem blockVal_lane5 : blockVal (F := Ideal) v0 v2 v4 v6 v74 (ix3 (0 : Fin 1) (0 : Fin 1) (5 : Fin 128))
    = instVal (F := Ideal) (k0_pay2 v0) (k0_pay3 v2) (k0_pay5 v6) (k0_pay6 v0 v2) (k0_pay15 v74) (ix2 (0 : Fin 1) (0 : Fin 1)) := by
  unfold blockVal
  rw [row_apply, pick_ne (5 : Fin 128) 0#32 _ (by decide), pick_ne (5 : Fin 128) 1#32 _ (by decide),
    pick_ne (5 : Fin 128) 2#32 _ (by decide), pick_ne (5 : Fin 128) 3#32 _ (by decide),
    pick_ne (5 : Fin 128) 4#32 _ (by decide), pick_self (5 : Fin 128) 5#32 _ (by decide)]
  simp only [add_zero, zero_add]

/-! ## The host's last lines -/

/-- One column of the array of statistics, summed over the eight samples by the host: the sum, over the samples,
    of that lane of each sample's row. -/
theorem laneSum_apply (A : FVec Ideal S8x1x128 .f32) (off : Fin 2 → Nat) (hs : S8x128.Slices off S8x1) (j : Fin 128)
    (h0 : off 0 = 0) (h1 : off 1 = j.val) (i : S_.Idx) :
    laneSum (F := Ideal) (shapeCast S8x128 A shapeCasts_S8x1x128_S8x128) off hs i
      = ∑ b : Fin 8, A (ix3 b (0 : Fin 1) j) := by
  unfold laneSum
  simp only [Host.reduceAdd, Ideal.hostReduceAdd_def]
  rw [Ideal.hostReduceAdd_total reducesTo_S8_S_d0 (fun b => b.elim0)]
  rw [constant_apply, Ideal.ofBits_zero_f32, zero_add]
  -- the sum over the rank-1 indices is the sum over the eight samples
  refine (Equiv.sum_comp (idxEquiv1 (n := 8)).symm _).symm.trans (Finset.sum_congr rfl fun b _ => ?_)
  show shapeCast S8 _ shapeCasts_S8x1_S8 (ix1 b) = _
  -- the reshape [8, 1] → [8] at b is the slice at (b, 0)
  refine (shapeCast_apply _ shapeCasts_S8x1_S8 (ix1 b) (ix2 b (0 : Fin 1)) ?_).trans ?_
  · rw [Shape.rowMajor_val_two, Shape.rowMajor_val_one]
    show b.val * 1 + 0 = b.val
    omega
  -- the slice at (b, 0) is the [8, 128] array at (b, j)
  refine (extractStridedSlice_apply off _ hs (ix2 b (0 : Fin 1)) (ix2 b j) fun a => ?_).trans ?_
  · match a with
    | ⟨0, _⟩ => show b.val = off 0 + b.val; omega
    | ⟨1, _⟩ => show j.val = off 1 + 0; omega
  -- the reshape [8, 1, 128] → [8, 128] at (b, j) is the array at (b, 0, j)
  refine shapeCast_apply A shapeCasts_S8x1x128_S8x128 (ix2 b j) (ix3 b (0 : Fin 1) j) ?_
  rw [Shape.rowMajor_val_three, Shape.rowMajor_val_two]
  show (b.val * 1 + 0) * 128 + j.val = b.val * 128 + j.val
  omega

/-- The host's last lines: the six columns summed over the samples, combined. -/
theorem hostTail_apply (A : FVec Ideal S8x1x128 .f32) (i : S_.Idx) :
    hostTail (F := Ideal) A i
      = Cert.Spec.combine (∑ b : Fin 8, A (ix3 b (0 : Fin 1) (0 : Fin 128))) (∑ b : Fin 8, A (ix3 b (0 : Fin 1) (1 : Fin 128)))
          (∑ b : Fin 8, A (ix3 b (0 : Fin 1) (2 : Fin 128))) (∑ b : Fin 8, A (ix3 b (0 : Fin 1) (3 : Fin 128)))
          (∑ b : Fin 8, A (ix3 b (0 : Fin 1) (4 : Fin 128))) (∑ b : Fin 8, A (ix3 b (0 : Fin 1) (5 : Fin 128))) := by
  unfold hostTail Cert.Spec.combine
  simp only [addf_apply, mulf_apply, constant_apply, Host.divf, Ideal.hostDivf_def]
  rw [laneSum_apply A _ slices_S8x128_S8x1_0_0 (0 : Fin 128) rfl rfl, laneSum_apply A _ slices_S8x128_S8x1_0_1 (1 : Fin 128) rfl rfl,
    laneSum_apply A _ slices_S8x128_S8x1_0_2 (2 : Fin 128) rfl rfl, laneSum_apply A _ slices_S8x128_S8x1_0_3 (3 : Fin 128) rfl rfl,
    laneSum_apply A _ slices_S8x128_S8x1_0_4 (4 : Fin 128) rfl rfl, laneSum_apply A _ slices_S8x128_S8x1_0_5 (5 : Fin 128) rfl rfl]

end Cert.KernelIdeal.Body

end
-- ==== Proof.KerSums.lean ====
/-
  The body's five plain statistics are the specification's sums over the sample's plane.

  Each statistic is a plane of pointwise values summed twice: along the lanes of every row, then down the column of
  row sums. Read at its one index, the double reduction is the plain double sum over rows and columns (`rsum_apply`).
  Pointwise, the clipped cross-entropy the body spells with a comparison and a select is the specification's `bce`
  (`bce_kernel`), and the loaded blocks read through their shape casts are the sample's planes. Two statistics are
  formed by a subtraction AFTER the sums — Σ A − Σ A·fc for Σ A·(1 − fc), and 409600 − Σ fc for Σ (1 − fc) —, which
  is sound because every summand is a finite real and the mask fc takes the values 0 and 1 only: both sides are
  moved to the reals, where the sums distribute.
-/
import proofs.«404552_j11441792876694_3_alg».proof.Proof.Body
import Idealize.ShloMosaic.Lib.Pipeline.Value
import Idealize.ShloMosaic.Lib.ValueLayout
import Idealize.ShloMosaic.PureOps.Ideal.Laws

noncomputable section

namespace Cert.KernelIdeal.Body

open Idealize.ShloMosaic Idealize.ShloMosaic.ValueIdx Cert.KernelIdeal Cert.KernelIdeal.Gen

/-! ## Layout: the casts that only add or drop unit axes, read at an index -/

/-- An `[a]` array cast to the column `[a, 1]` reads, at `(i, u)`, the operand at `i`. -/
theorem cast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1, a, b]` array cast to `[a, b]` reads, at `(i, j)`, the operand at `(0, 0, i, j)`. -/
theorem cast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-! ## The double reduction of a plane is its double sum -/

/-- The lane sums of a 640 × 640 plane, stood up as a column, summed down that column and read at the one index of the
    [1, 1] result: the sum over the rows of the sums over the columns. Both reductions start from the zero pattern,
    the neutral element of the sum, so no initial value is left in it. -/
theorem rsum_apply (X : FVec Ideal S640x640 .f32)
    (h1 : S640x640.Reduces [1] S640) (c1 : S640.ShapeCasts S640x1) (h0 : S640x1.Reduces [0] S1)
    (c0 : S1.ShapeCasts S1x1) (hφ : FKind.Formats .f32) (ha : (0x00000000#32 : BitVec 32) = FKind.add.neutral .f32 hφ)
    (hφ' : FKind.Formats .f32) (ha' : (0x00000000#32 : BitVec 32) = FKind.add.neutral .f32 hφ') :
    shapeCast S1x1 (multiReduction (F := Ideal) .add [0] S1
        (shapeCast S640x1 (multiReduction (F := Ideal) .add [1] S640 X 0x00000000#32 h1 hφ ha) c1) 0x00000000#32 h0 hφ' ha') c0
        (ix2 (0 : Fin 1) (0 : Fin 1))
      = Cert.Spec.psum fun r c => X (ix2 r c) := by
  rw [cast_a_a1_apply (a := 1), Ideal.multiReduction_add_single]
  unfold Cert.Spec.psum
  refine Finset.sum_congr rfl fun (r : Fin 640) _ => ?_
  have e : h0.lift (ix1 (0 : Fin 1)) r = ix2 r (0 : Fin 1) := by
    funext a; match a with | ⟨0, _⟩ => rfl | ⟨1, _⟩ => rfl
  rw [e, cast_a_a1_apply, Ideal.multiReduction_add_single]
  refine Finset.sum_congr rfl fun (c : Fin 640) _ => ?_
  congr 1
  funext a; match a with | ⟨0, _⟩ => rfl | ⟨1, _⟩ => rfl

/-! ## The literals -/

/-- The three patterns the statistics carry besides zero: 1, −100 and 409600 = 640 · 640. -/
theorem lit_one : Ideal.ofBits .f32 0x3F800000#32 = 1 := by
  simp [Ideal.ofBits, Ideal.ieee, -EReal.coe_mul]; norm_num

theorem lit_m100 : Ideal.ofBits .f32 0xC2C80000#32 = ((-100 : ℝ) : EReal) := by
  simp [Ideal.ofBits, Ideal.ieee, -EReal.coe_mul]; norm_num

theorem lit_409600 : Ideal.ofBits .f32 0x48C80000#32 = ((409600 : ℝ) : EReal) := by
  simp [Ideal.ofBits, Ideal.ieee, -EReal.coe_mul]; norm_num

/-! ## The cross-entropy at a pixel -/

/-- The body's select between 0 − max(−100, log p) and 0 − max(−100, log1p (0 − p)) on the comparison t = 1 is the
    specification's cross-entropy: 0 − x is −x, and the comparison's bit is 1 exactly when t = 1. -/
theorem bce_kernel (p t : EReal) :
    Scalar.select (Ideal.cmp .oeq t (Ideal.ofBits .f32 0x3F800000#32))
      (Ideal.ofBits .f32 0x00000000#32 - max (Ideal.ofBits .f32 0xC2C80000#32) (Ideal.log p))
      (Ideal.ofBits .f32 0x00000000#32 - max (Ideal.ofBits .f32 0xC2C80000#32)
        (Ideal.log1p (Ideal.ofBits .f32 0x00000000#32 - p)))
      = Cert.Spec.bce p t := by
  rw [Ideal.ofBits_zero_f32, lit_one]
  simp only [zero_sub]
  unfold Cert.Spec.bce Cert.Spec.clog Cert.Spec.clog1m Cert.Spec.m100 Scalar.select Ideal.cmp
  by_cases ht : t = 1
  · simp [ht]
  · simp [ht]

/-- The embedding of the reals in the extended reals carries a finite sum to the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- So the sum over a plane of reals is the real double sum. -/
theorem psum_coe (a : Fin 640 → Fin 640 → ℝ) :
    Cert.Spec.psum (fun r c => (a r c : EReal)) = ((∑ r, ∑ c, a r c : ℝ) : EReal) := by
  unfold Cert.Spec.psum
  rw [coe_sum]
  refine Finset.sum_congr rfl fun r _ => ?_
  rw [coe_sum]

/-- The clipped logarithm of a real is a real: log x is a real or −∞, and the maximum with −100 is a real either way. -/
theorem clog_real (x : ℝ) : ∃ y : ℝ, Cert.Spec.clog (x : EReal) = (y : EReal) := by
  unfold Cert.Spec.clog Cert.Spec.m100
  rw [lit_m100, Ideal.log_coe]
  by_cases hx : x ≤ 0
  · exact ⟨-100, by rw [if_pos hx, max_bot_right]⟩
  · exact ⟨max (-100) (Real.log x), by rw [if_neg hx, EReal.coe_strictMono.monotone.map_max]⟩

/-- Likewise the clipped logarithm of 1 − x. -/
theorem clog1m_real (x : ℝ) : ∃ y : ℝ, Cert.Spec.clog1m (x : EReal) = (y : EReal) := by
  unfold Cert.Spec.clog1m Cert.Spec.m100 Ideal.log1p
  rw [lit_m100, ← EReal.coe_neg, ← EReal.coe_one, ← EReal.coe_add, Ideal.log_coe]
  by_cases hx : 1 + -x ≤ 0
  · exact ⟨-100, by rw [if_pos hx, max_bot_right]⟩
  · exact ⟨max (-100) (Real.log (1 + -x)), by rw [if_neg hx, EReal.coe_strictMono.monotone.map_max]⟩

/-- Hence the cross-entropy of a real prediction is a real, whatever the target. -/
theorem bce_real (x : ℝ) (t : EReal) : ∃ y : ℝ, Cert.Spec.bce (x : EReal) t = (y : EReal) := by
  unfold Cert.Spec.bce
  obtain ⟨y1, h1⟩ := clog_real x
  obtain ⟨y2, h2⟩ := clog1m_real x
  by_cases ht : t = 1
  · exact ⟨-y1, by rw [if_pos ht, h1, EReal.coe_neg]⟩
  · exact ⟨-y2, by rw [if_neg ht, h2, EReal.coe_neg]⟩

/-- Σ A − Σ A·G = Σ A·(1 − G) for a real-valued plane A and a {0, 1}-valued plane G. -/
theorem psum_sub_mul (A G : Cert.Spec.Plane) (hA : ∀ r c, ∃ y : ℝ, A r c = (y : EReal))
    (hG : ∀ r c, G r c = 0 ∨ G r c = 1) :
    Cert.Spec.psum A - Cert.Spec.psum (fun r c => A r c * G r c)
      = Cert.Spec.psum (fun r c => A r c * (1 - G r c)) := by
  choose a ha using hA
  have hG' : ∀ r c, ∃ g : ℝ, G r c = (g : EReal) := fun r c => by
    rcases hG r c with h | h
    · exact ⟨0, by rw [h, EReal.coe_zero]⟩
    · exact ⟨1, by rw [h, EReal.coe_one]⟩
  choose g hg using hG'
  have e1 : A = fun r c => ((a r c : ℝ) : EReal) := funext fun r => funext fun c => ha r c
  have e2 : (fun r c => A r c * G r c) = fun r c => ((a r c * g r c : ℝ) : EReal) :=
    funext fun r => funext fun c => by rw [ha, hg, EReal.coe_mul]
  have e3 : (fun r c => A r c * (1 - G r c)) = fun r c => ((a r c * (1 - g r c) : ℝ) : EReal) :=
    funext fun r => funext fun c => by rw [ha, hg, EReal.coe_mul, EReal.coe_sub, EReal.coe_one]
  rw [e2, e3, e1, psum_coe, psum_coe, psum_coe, ← EReal.coe_sub]
  congr 1
  rw [← Finset.sum_sub_distrib]
  refine Finset.sum_congr rfl fun r _ => ?_
  rw [← Finset.sum_sub_distrib]
  refine Finset.sum_congr rfl fun c _ => ?_
  ring

/-- 409600 − Σ G = Σ (1 − G) for a {0, 1}-valued plane G: the plane has 640 · 640 = 409600 pixels. -/
theorem psum_one_sub (G : Cert.Spec.Plane) (hG : ∀ r c, G r c = 0 ∨ G r c = 1) :
    ((409600 : ℝ) : EReal) - Cert.Spec.psum G = Cert.Spec.psum (fun r c => 1 - G r c) := by
  have hG' : ∀ r c, ∃ g : ℝ, G r c = (g : EReal) := fun r c => by
    rcases hG r c with h | h
    · exact ⟨0, by rw [h, EReal.coe_zero]⟩
    · exact ⟨1, by rw [h, EReal.coe_one]⟩
  choose g hg using hG'
  have e1 : G = fun r c => ((g r c : ℝ) : EReal) := funext fun r => funext fun c => hg r c
  have e2 : (fun r c => 1 - G r c) = fun r c => ((1 - g r c : ℝ) : EReal) :=
    funext fun r => funext fun c => by rw [hg, EReal.coe_sub, EReal.coe_one]
  rw [e2, e1, psum_coe, psum_coe, ← EReal.coe_sub]
  congr 1
  simp only [Finset.sum_sub_distrib, Finset.sum_const, Finset.card_univ, Fintype.card_fin, nsmul_eq_mul]
  norm_num

/-! ## The loaded blocks and the pointwise planes, read at a pixel -/

variable (v0 v2 : Vec Ideal S1x1x640x640 .f32) (v4 v6 : Vec Ideal S1x640x640 .f32) (v74 : Vec Ideal S1x640x640 .i32)

theorem pay2_apply (r c : Fin 640) : k0_pay2 (F := Ideal) v0 (ix2 r c) = plA v0 r c :=
  cast_11ab_ab_apply v0 _ r c

theorem pay3_apply (r c : Fin 640) : k0_pay3 (F := Ideal) v2 (ix2 r c) = plA v2 r c :=
  cast_11ab_ab_apply v2 _ r c

theorem pay4_apply (r c : Fin 640) : k0_pay4 (F := Ideal) v4 (ix2 r c) = plB v4 r c :=
  shapeCast_1ab_ab_apply v4 _ r c

theorem pay5_apply (r c : Fin 640) : k0_pay5 (F := Ideal) v6 (ix2 r c) = plB v6 r c :=
  shapeCast_1ab_ab_apply v6 _ r c

/-- The product of the two predictions at a pixel. -/
theorem pay6_apply (r c : Fin 640) : k0_pay6 (F := Ideal) v0 v2 (ix2 r c) = plA v0 r c * plA v2 r c := by
  show k0_pay2 (F := Ideal) v0 (ix2 r c) * k0_pay3 (F := Ideal) v2 (ix2 r c) = _
  rw [pay2_apply, pay3_apply]

/-- The cross-entropy of the product against the overlap mask at a pixel. -/
theorem pay7_apply (r c : Fin 640) :
    k0_pay7 (F := Ideal) v0 v2 v6 (ix2 r c) = Cert.Spec.bce (plA v0 r c * plA v2 r c) (plB v6 r c) := by
  have e : k0_pay7 (F := Ideal) v0 v2 v6 (ix2 r c)
      = Scalar.select (Ideal.cmp .oeq (k0_pay5 (F := Ideal) v6 (ix2 r c)) (Ideal.ofBits .f32 0x3F800000#32))
          (Ideal.ofBits .f32 0x00000000#32
            - max (Ideal.ofBits .f32 0xC2C80000#32) (Ideal.log (k0_pay6 (F := Ideal) v0 v2 (ix2 r c))))
          (Ideal.ofBits .f32 0x00000000#32 - max (Ideal.ofBits .f32 0xC2C80000#32)
            (Ideal.log1p (Ideal.ofBits .f32 0x00000000#32 - k0_pay6 (F := Ideal) v0 v2 (ix2 r c)))) := rfl
  rw [e, bce_kernel, pay6_apply, pay5_apply]

/-- The third payload's double reduction, of any plane. -/
theorem pay10_sum (X : FVec Ideal S640x640 .f32) :
    k0_pay10 (F := Ideal) X (ix2 (0 : Fin 1) (0 : Fin 1)) = Cert.Spec.psum fun r c => X (ix2 r c) :=
  rsum_apply X _ _ _ _ _ _ _ _

/-! ## The five statistics -/

theorem pay8_eq (h : Cert.Spec.HypB (plA v0) (plA v2) (plB v4) (plB v6) (plW v74)) :
    k0_pay8 (F := Ideal) v0 v2 v4 v6 (ix2 (0 : Fin 1) (0 : Fin 1)) = Cert.Spec.andPos (plA v0) (plA v2) (plB v4) (plB v6) := by
  refine (rsum_apply (mulf (k0_pay7 (F := Ideal) v0 v2 v6) (k0_pay4 (F := Ideal) v4)) _ _ _ _ _ _ _ _).trans ?_
  unfold Cert.Spec.andPos Cert.Spec.amap
  congr 1
  funext r c
  rw [mulf_apply, pay7_apply, pay4_apply]

theorem pay9_eq (h : Cert.Spec.HypB (plA v0) (plA v2) (plB v4) (plB v6) (plW v74)) :
    k0_pay9 (F := Ideal) v0 v2 v4 v6 (ix2 (0 : Fin 1) (0 : Fin 1)) = Cert.Spec.andNeg (plA v0) (plA v2) (plB v4) (plB v6) := by
  -- the body forms Σ A − Σ A·fc, A the cross-entropy plane
  have e : k0_pay9 (F := Ideal) v0 v2 v4 v6 (ix2 (0 : Fin 1) (0 : Fin 1))
      = k0_pay10 (F := Ideal) (k0_pay7 (F := Ideal) v0 v2 v6) (ix2 (0 : Fin 1) (0 : Fin 1))
        - k0_pay8 (F := Ideal) v0 v2 v4 v6 (ix2 (0 : Fin 1) (0 : Fin 1)) := rfl
  rw [e, pay10_sum, pay8_eq v0 v2 v4 v6 v74 h]
  unfold Cert.Spec.andPos Cert.Spec.andNeg
  -- every entry of A is a finite real: the product of two finite predictions, its logarithms clipped at −100
  have hA : ∀ r c, ∃ y : ℝ, Cert.Spec.amap (plA v0) (plA v2) (plB v6) r c = (y : EReal) := fun r c => by
    obtain ⟨x1, h1⟩ := h.fin1 r c
    obtain ⟨x2, h2⟩ := h.fin2 r c
    unfold Cert.Spec.amap
    rw [h1, h2, ← EReal.coe_mul]
    exact bce_real _ _
  have e7 : (fun r c => k0_pay7 (F := Ideal) v0 v2 v6 (ix2 r c)) = Cert.Spec.amap (plA v0) (plA v2) (plB v6) :=
    funext fun r => funext fun c => pay7_apply v0 v2 v6 r c
  rw [e7]
  exact psum_sub_mul _ _ hA h.binC

theorem pay10_eq (h : Cert.Spec.HypB (plA v0) (plA v2) (plB v4) (plB v6) (plW v74)) :
    k0_pay10 (F := Ideal) (k0_pay4 v4) (ix2 (0 : Fin 1) (0 : Fin 1)) = Cert.Spec.nPos (plB v4) := by
  refine (rsum_apply (k0_pay4 (F := Ideal) v4) _ _ _ _ _ _ _ _).trans ?_
  unfold Cert.Spec.nPos
  congr 1
  funext r c
  rw [pay4_apply]

theorem pay11_eq (h : Cert.Spec.HypB (plA v0) (plA v2) (plB v4) (plB v6) (plW v74)) :
    k0_pay11 (F := Ideal) (k0_pay4 v4) (ix2 (0 : Fin 1) (0 : Fin 1)) = Cert.Spec.nNeg (plB v4) := by
  -- the body forms 409600 − Σ fc
  have e : k0_pay11 (F := Ideal) (k0_pay4 (F := Ideal) v4) (ix2 (0 : Fin 1) (0 : Fin 1))
      = Ideal.ofBits .f32 0x48C80000#32
        - k0_pay10 (F := Ideal) (k0_pay4 (F := Ideal) v4) (ix2 (0 : Fin 1) (0 : Fin 1)) := rfl
  rw [e, pay10_eq v0 v2 v4 v6 v74 h, lit_409600]
  unfold Cert.Spec.nPos Cert.Spec.nNeg
  exact psum_one_sub _ h.binC

theorem pay12_eq (h : Cert.Spec.HypB (plA v0) (plA v2) (plB v4) (plB v6) (plW v74)) :
    k0_pay12 (F := Ideal) (k0_pay2 v0) (k0_pay3 v2) (k0_pay4 v4) (ix2 (0 : Fin 1) (0 : Fin 1))
      = Cert.Spec.orSum (plA v0) (plA v2) (plB v4) := by
  refine (rsum_apply _ _ _ _ _ _ _ _ _).trans ?_
  unfold Cert.Spec.orSum
  congr 1
  funext r c
  show Scalar.select (Ideal.cmp .oeq (k0_pay4 (F := Ideal) v4 (ix2 r c)) (Ideal.ofBits .f32 0x3F800000#32))
      (Ideal.ofBits .f32 0x00000000#32 - max (Ideal.ofBits .f32 0xC2C80000#32)
        (Ideal.log (max (k0_pay2 (F := Ideal) v0 (ix2 r c)) (k0_pay3 (F := Ideal) v2 (ix2 r c)))))
      (Ideal.ofBits .f32 0x00000000#32 - max (Ideal.ofBits .f32 0xC2C80000#32)
        (Ideal.log1p (Ideal.ofBits .f32 0x00000000#32
          - max (k0_pay2 (F := Ideal) v0 (ix2 r c)) (k0_pay3 (F := Ideal) v2 (ix2 r c))))) = _
  rw [bce_kernel, pay2_apply, pay3_apply, pay4_apply]

end Cert.KernelIdeal.Body

end
-- ==== Proof.KerInst.lean ====
/-
  The body's instance term is the specification's: the loop's fifteen trips accumulate ids 0 to 14, and since every
  pixel carries one of the sixteen ids, the total less the fifteen is the sixteenth.

  Each trip adds to four running sums: the id's term, whether it occurs, its count and its masked sum of the difference
  plane. So after the loop the four are sums over k < 15. The per-id sums over all sixteen ids add up to the plane's
  totals (409600 pixels, and the plane's sum of differences); the first fifteen are real numbers, so taking them off the
  totals leaves exactly the sixteenth id's count and sum, and the sixteen terms and flags divide as the specification's.
-/
import proofs.«404552_j11441792876694_3_alg».proof.Proof.Body
import Idealize.ShloMosaic.Lib.Pipeline.Value
import Idealize.ShloMosaic.Lib.ValueLayout
import Idealize.ShloMosaic.PureOps.Ideal.Laws

noncomputable section

namespace Cert.KernelIdeal.Body.Inst

open Idealize.ShloMosaic Idealize.ShloMosaic.ValueIdx Cert.KernelIdeal Cert.KernelIdeal.Gen

/-! ## Folds and sums -/

/-- A left fold whose every step adds a term to a quantity read off the state is that quantity at the start plus the
    list's sum of the terms. -/
theorem foldl_add_sum {ι σ : Type} (l : List ι) (g : ι → σ → σ) (p : σ → EReal) (t : ι → EReal)
    (hg : ∀ k a, p (g k a) = p a + t k) (init : σ) :
    p (l.foldl (fun acc k => g k acc) init) = p init + (l.map t).sum := by
  induction l generalizing init with
  | nil => simp
  | cons k l ih => rw [List.foldl_cons, ih, hg, List.map_cons, List.sum_cons, add_assoc]

/-- The same for the loop's fold over its trips: the start plus the sum over the trips. -/
theorem fold_add_sum {n : Nat} {σ : Type} (g : Fin n → σ → σ) (p : σ → EReal) (t : Fin n → EReal)
    (hg : ∀ k a, p (g k a) = p a + t k) (init : σ) :
    p (Scf.fold g init) = p init + ∑ k, t k := by
  rw [Scf.fold_eq, foldl_add_sum _ g p t hg, Fin.sum_univ_def]

/-- A sum over a range whose length is fifteen, re-indexed over `Fin 15`, when the terms depend on the trip's number only. -/
theorem sum_trips {n : Nat} (hn : n = 15) (t : Nat → EReal) : ∑ k : Fin n, t k.val = ∑ k : Fin 15, t k.val := by
  subst hn; rfl

theorem trips_eq : k0_t1_loop.trips = 15 := by decide

/-- The plane's two reductions (rows, then the column of row sums, each kept as a unit axis) read at the one index. -/
theorem planeSum_apply (x : FVec Ideal S640x640 .f32) (h1 : S640x640.Reduces [1] S640) (c1 : S640.ShapeCasts S640x1)
    (h2 : S640x1.Reduces [0] S1) (c2 : S1.ShapeCasts S1x1) (hφ1 hφ2 : FKind.Formats .f32)
    (ha1 : (0x00000000#32 : BitVec 32) = FKind.add.neutral .f32 hφ1) (ha2 : (0x00000000#32 : BitVec 32) = FKind.add.neutral .f32 hφ2) :
    shapeCast S1x1 (multiReduction .add [0] S1 (shapeCast S640x1 (multiReduction .add [1] S640 x 0x00000000#32 h1 hφ1 ha1) c1)
        0x00000000#32 h2 hφ2 ha2) c2 (ix2 (0 : Fin 1) (0 : Fin 1))
      = ∑ r : Fin 640, ∑ c : Fin 640, x (ix2 r c) := by
  rw [shapeCast_apply _ c2 _ (ix1 (0 : Fin 1)) (by rw [Shape.rowMajor_val_two, Shape.rowMajor_val_one]; rfl)]
  rw [Ideal.multiReduction_add_single]
  refine Finset.sum_congr rfl fun r _ => ?_
  rw [shapeCast_apply _ c1 _ (ix1 r) (by rw [Shape.rowMajor_val_two, Shape.rowMajor_val_one]; show r.val = r.val * 1 + 0; omega)]
  rw [Ideal.multiReduction_add_single]
  refine Finset.sum_congr rfl fun c _ => ?_
  congr 1
  funext a; match a with | ⟨0, _⟩ => rfl | ⟨1, _⟩ => rfl

/-! ## Words and bits -/

/-- The loop's counter at trip `m` (from 0 by steps of 1) is the word `m`. -/
theorem iv_eq (m : Nat) : Scf.iv 0#32 1#32 m = BitVec.ofNat 32 m := by
  unfold Scf.iv
  rw [BitVec.mul_one, BitVec.zero_add]

/-- The test "this id is the trip's number", for a trip number below 16. -/
theorem cmpi_eq_iv (x : BitVec 32) (m : Nat) (hm : m < 16) :
    IntOp.cmpi .eq x (Scf.iv 0#32 1#32 m) = if x.toNat = m then 1#1 else 0#1 := by
  rw [iv_eq]
  by_cases h : x.toNat = m
  · rw [if_pos h]
    have hx : x = BitVec.ofNat 32 m :=
      BitVec.eq_of_toNat_eq (by rw [BitVec.toNat_ofNat, h, Nat.mod_eq_of_lt (by omega)])
    rw [← hx]
    show BitVec.ofBool (x == x) = 1#1
    rw [beq_self_eq_true]; rfl
  · rw [if_neg h]
    have hx : (x == BitVec.ofNat 32 m) = false := by
      rw [beq_eq_false_iff_ne]
      intro e; apply h; rw [e, BitVec.toNat_ofNat]; exact Nat.mod_eq_of_lt (by omega)
    show BitVec.ofBool (x == BitVec.ofNat 32 m) = 0#1
    rw [hx]; rfl

/-- A select on a decided bit is the `if`. -/
theorem select_ite {α : Type} (p : Prop) [Decidable p] (a b : α) :
    Scalar.select (if p then 1#1 else 0#1) a b = if p then a else b := by
  by_cases h : p
  · rw [if_pos h, if_pos h]; exact select_one a b
  · rw [if_neg h, if_neg h]; exact select_zero a b

/-- "Greater than" on the extended reals as a decided bit. -/
theorem cmp_ogt (x y : EReal) : Ideal.cmp .ogt x y = if y < x then 1#1 else 0#1 := by
  show BitVec.ofBool (decide (y < x)) = _
  by_cases h : y < x
  · rw [if_pos h, decide_eq_true h]; rfl
  · rw [if_neg h, decide_eq_false h]; rfl

/-- A decided bit, widened and read as a signed integer, is 1 or 0. -/
theorem sitofp_bit (p : Prop) [Decidable p] :
    FloatOps.sitofp (F := Ideal) .f32 ((if p then 1#1 else 0#1 : BitVec 1).setWidth 32) = if p then (1 : EReal) else 0 := by
  by_cases h : p
  · rw [if_pos h, if_pos h]
    show (((((1#1 : BitVec 1).setWidth 32).toInt : ℤ) : ℝ) : EReal) = 1
    rw [show ((1#1 : BitVec 1).setWidth 32).toInt = 1 by decide]
    simp
  · rw [if_neg h, if_neg h]
    show (((((0#1 : BitVec 1).setWidth 32).toInt : ℤ) : ℝ) : EReal) = 0
    rw [show ((0#1 : BitVec 1).setWidth 32).toInt = 0 by decide]
    simp

/-! ## The constants -/

theorem lit_one : Ideal.ofBits .f32 0x3F800000#32 = 1 := by
  simp [Ideal.ofBits, Ideal.ieee, -EReal.coe_mul]; norm_num

/-- The pattern 0x48C80000 is 409600 = 640 · 640, the number of pixels. -/
theorem lit_total : Ideal.ofBits .f32 0x48C80000#32 = ((409600 : ℝ) : EReal) := by
  simp [Ideal.ofBits, Ideal.ieee, -EReal.coe_mul]; norm_num

/-! ## Finite values -/

/-- An extended real that is a real number. -/
def IsR (x : EReal) : Prop := ∃ y : ℝ, x = (y : EReal)

theorem IsR.zero : IsR 0 := ⟨0, rfl⟩
theorem IsR.one : IsR 1 := ⟨1, rfl⟩
theorem IsR.add {a b : EReal} (ha : IsR a) (hb : IsR b) : IsR (a + b) := by
  obtain ⟨x, rfl⟩ := ha; obtain ⟨y, rfl⟩ := hb; exact ⟨x + y, (EReal.coe_add x y).symm⟩
theorem IsR.sub {a b : EReal} (ha : IsR a) (hb : IsR b) : IsR (a - b) := by
  obtain ⟨x, rfl⟩ := ha; obtain ⟨y, rfl⟩ := hb; exact ⟨x - y, (EReal.coe_sub x y).symm⟩
theorem IsR.mul {a b : EReal} (ha : IsR a) (hb : IsR b) : IsR (a * b) := by
  obtain ⟨x, rfl⟩ := ha; obtain ⟨y, rfl⟩ := hb; exact ⟨x * y, (EReal.coe_mul x y).symm⟩
theorem IsR.max {a b : EReal} (ha : IsR a) (hb : IsR b) : IsR (max a b) := by
  rcases le_total a b with h | h
  · rw [max_eq_right h]; exact hb
  · rw [max_eq_left h]; exact ha
theorem IsR.sum {ι : Type} (s : Finset ι) (f : ι → EReal) (h : ∀ i ∈ s, IsR (f i)) : IsR (∑ i ∈ s, f i) :=
  Finset.sum_induction f IsR (fun _ _ ha hb => ha.add hb) IsR.zero h

/-- Taking a real number off a sum it is a term of leaves the other term. -/
theorem sub_of_add_eq {a b t : EReal} (ha : IsR a) (h : a + b = t) : t - a = b := by
  obtain ⟨x, rfl⟩ := ha
  rw [← h]
  exact EReal.add_sub_cancel_left

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Sixteen terms are fifteen and the last. -/
theorem sum16 (t : Nat → EReal) : ∑ k : Fin 16, t k.val = ∑ k : Fin 15, t k.val + t 15 := by
  rw [Fin.sum_univ_castSucc]; rfl

/-! ## Per-id sums over the plane -/

open Cert.Spec in
/-- The sum of `D` over the pixels whose id is the number `m`; with `D = 1`, their count. -/
def dsN (D : Plane) (W : IPlane) (m : Nat) : EReal := psum fun r c => if (W r c).toNat = m then D r c else 0
open Cert.Spec in
def cntN (W : IPlane) (m : Nat) : EReal := dsN (fun _ _ => 1) W m

/-- One id's term and whether the id occurs, from its count `c` and its sum `s`. -/
def termE (c s : EReal) : EReal := if 0 < c then 1 - max (Ideal.div s c) (-(Ideal.div s c)) else 0
def presE (c : EReal) : EReal := if 0 < c then 1 else 0

open Cert.Spec in
theorem IsR_dsN (D : Plane) (W : IPlane) (m : Nat) (hD : ∀ r c, IsR (D r c)) : IsR (dsN D W m) := by
  unfold dsN psum
  refine IsR.sum _ _ fun r _ => IsR.sum _ _ fun c _ => ?_
  show IsR (if (W r c).toNat = m then D r c else 0)
  by_cases e : (W r c).toNat = m
  · rw [if_pos e]; exact hD r c
  · rw [if_neg e]; exact IsR.zero

open Cert.Spec in
/-- Every pixel carries one of the sixteen ids, so the sixteen per-id sums add up to the plane's sum. -/
theorem sum_dsN (D : Plane) (W : IPlane) (hW : ∀ r c, (W r c).toNat < 16) : ∑ k : Fin 16, dsN D W k.val = psum D := by
  unfold dsN psum
  rw [Finset.sum_comm]
  refine Finset.sum_congr rfl fun r _ => ?_
  rw [Finset.sum_comm]
  refine Finset.sum_congr rfl fun c _ => ?_
  have e : ∀ k : Fin 16, ((W r c).toNat = k.val) ↔ ((⟨(W r c).toNat, hW r c⟩ : Fin 16) = k) := fun k =>
    ⟨fun h => Fin.ext h, fun h => congrArg Fin.val h⟩
  simp only [e, Finset.sum_ite_eq, Finset.mem_univ, if_true]

open Cert.Spec in
/-- The plane has 409600 pixels. -/
theorem psum_one : psum (fun _ _ => (1 : EReal)) = ((409600 : ℝ) : EReal) := by
  have e : (409600 : ℝ) = ∑ r : Fin 640, ∑ c : Fin 640, (1 : ℝ) := by simp <;> norm_num
  rw [e, coe_sum]
  unfold psum
  refine Finset.sum_congr rfl fun r _ => ?_
  rw [coe_sum]
  rfl

/-! ## The kernel's per-id term as a function of a count and a sum -/

/-- What the kernel computes from an id's count `c` and masked sum `s`: the term, and the "occurs" flag as a float. -/
def kTerm (c s : EReal) : EReal :=
  Scalar.select (Ideal.cmp .ogt c (Ideal.ofBits .f32 0x00000000#32))
    (Ideal.ofBits .f32 0x3F800000#32
      - max (Ideal.div s (Scalar.select (Ideal.cmp .ogt c (Ideal.ofBits .f32 0x00000000#32)) c (Ideal.ofBits .f32 0x3F800000#32)))
          (-(Ideal.div s (Scalar.select (Ideal.cmp .ogt c (Ideal.ofBits .f32 0x00000000#32)) c (Ideal.ofBits .f32 0x3F800000#32)))))
    (Ideal.ofBits .f32 0x00000000#32)
def kPres (c : EReal) : EReal :=
  FloatOps.sitofp (F := Ideal) .f32 ((Ideal.cmp .ogt c (Ideal.ofBits .f32 0x00000000#32)).setWidth 32)

theorem kTerm_eq (c s : EReal) : kTerm c s = termE c s := by
  unfold kTerm termE
  rw [Ideal.ofBits_zero_f32, lit_one, cmp_ogt, select_ite, select_ite]
  by_cases h : 0 < c
  · simp only [if_pos h]
  · simp only [if_neg h]

theorem kPres_eq (c : EReal) : kPres c = presE c := by
  unfold kPres presE
  rw [Ideal.ofBits_zero_f32, cmp_ogt]
  exact sitofp_bit _

local notation "i0" => ix2 (0 : Fin 1) (0 : Fin 1)

/-! ## The payloads read at an index -/

theorem pay17_apply (w : IVec S640x640 32) (k : Fin k0_t1_loop.trips) (r c : Fin 640) :
    k0_pay17 w k (ix2 r c) = if (w (ix2 r c)).toNat = k.val then 1#1 else 0#1 := by
  have hk : k.val < 16 := lt_of_lt_of_le k.isLt (le_of_eq_of_le trips_eq (by decide))
  exact cmpi_eq_iv _ _ hk

open Cert.Spec in
theorem pay18_apply (w : IVec S640x640 32) (W : IPlane) (hw : ∀ r c, w (ix2 r c) = W r c) (k : Fin k0_t1_loop.trips) :
    k0_pay18 (F := Ideal) w k i0 = cntN W k.val := by
  refine (planeSum_apply _ _ _ _ _ _ _ _ _).trans ?_
  unfold cntN dsN psum
  refine Finset.sum_congr rfl fun r _ => Finset.sum_congr rfl fun c _ => ?_
  rw [select_apply, pay17_apply, select_ite, hw r c, broadcast_apply, broadcast_apply]
  show (if _ then Ideal.ofBits .f32 0x3F800000#32 else Ideal.ofBits .f32 0x00000000#32) = _
  rw [lit_one, Ideal.ofBits_zero_f32]

open Cert.Spec in
theorem pay19_apply (d : FVec Ideal S640x640 .f32) (w : IVec S640x640 32) (D : Plane) (W : IPlane)
    (hd : ∀ r c, d (ix2 r c) = D r c) (hw : ∀ r c, w (ix2 r c) = W r c) (k : Fin k0_t1_loop.trips) :
    k0_pay19 d w k i0 = dsN D W k.val := by
  refine (planeSum_apply _ _ _ _ _ _ _ _ _).trans ?_
  unfold dsN psum
  refine Finset.sum_congr rfl fun r _ => Finset.sum_congr rfl fun c _ => ?_
  rw [select_apply, pay17_apply, select_ite, hw r c, hd r c, broadcast_apply]
  show (if _ then _ else Ideal.ofBits .f32 0x00000000#32) = _
  rw [Ideal.ofBits_zero_f32]

open Cert.Spec in
theorem pay14_apply (v1 v3 v7 v8 : FVec Ideal S640x640 .f32) (D : Plane)
    (hd : ∀ r c, k0_pay13 v1 v3 v7 v8 (ix2 r c) = D r c) : k0_pay14 v1 v3 v7 v8 i0 = psum D := by
  refine (planeSum_apply _ _ _ _ _ _ _ _ _).trans ?_
  unfold psum
  exact Finset.sum_congr rfl fun r _ => Finset.sum_congr rfl fun c _ => hd r c

theorem pay21_raw (d : FVec Ideal S640x640 .f32) (w : IVec S640x640 32) (k : Fin k0_t1_loop.trips) (a : FVec Ideal S1x1 .f32) :
    k0_pay21 d w k a i0 = a i0 + kTerm (k0_pay18 (F := Ideal) w k i0) (k0_pay19 d w k i0) := rfl
theorem pay22_raw (w : IVec S640x640 32) (k : Fin k0_t1_loop.trips) (a : FVec Ideal S1x1 .f32) :
    k0_pay22 (F := Ideal) w k a i0 = a i0 + kPres (k0_pay18 (F := Ideal) w k i0) := rfl
theorem pay23_raw (w : IVec S640x640 32) (k : Fin k0_t1_loop.trips) (a : FVec Ideal S1x1 .f32) :
    k0_pay23 (F := Ideal) w k a i0 = a i0 + k0_pay18 (F := Ideal) w k i0 := rfl
theorem pay24_raw (d : FVec Ideal S640x640 .f32) (w : IVec S640x640 32) (k : Fin k0_t1_loop.trips) (a : FVec Ideal S1x1 .f32) :
    k0_pay24 d w k a i0 = a i0 + k0_pay19 d w k i0 := rfl
theorem pay25_raw (tot a b c d : FVec Ideal S1x1 .f32) :
    k0_pay25 tot a b c d i0
      = Ideal.div (a i0 + kTerm (Ideal.ofBits .f32 0x48C80000#32 - c i0) (tot i0 - d i0))
          (b i0 + kPres (Ideal.ofBits .f32 0x48C80000#32 - c i0)) := rfl
theorem zero11_apply : zero11 (F := Ideal) i0 = 0 := Ideal.ofBits_zero_f32

/-! ## The loop's four sums -/

/-- A quantity that every trip adds a term to, zero at the start, is after the fifteen trips the sum of the terms. -/
theorem fold_sum15 {σ : Type} (g : Fin k0_t1_loop.trips → σ → σ) (p : σ → EReal) (t : Nat → EReal)
    (hg : ∀ k a, p (g k a) = p a + t k.val) (init : σ) (h0 : p init = 0) :
    p (Scf.fold g init) = ∑ k : Fin 15, t k.val := by
  rw [fold_add_sum g p (fun k => t k.val) hg, h0, zero_add]
  exact sum_trips trips_eq t

section Loop
open Cert.Spec
variable (d : FVec Ideal S640x640 .f32) (w : IVec S640x640 32) (D : Plane) (W : IPlane)
  (hd : ∀ r c, d (ix2 r c) = D r c) (hw : ∀ r c, w (ix2 r c) = W r c)
include hd hw

theorem loop1 : (loopOut d w).1 i0 = ∑ k : Fin 15, termE (cntN W k.val) (dsN D W k.val) :=
  fold_sum15 (loopStep d w) (fun a => a.1 i0) (fun m => termE (cntN W m) (dsN D W m))
    (fun k a => by
      show k0_pay21 d w k a.1 i0 = _
      rw [pay21_raw, pay18_apply w W hw k, pay19_apply d w D W hd hw k, kTerm_eq]) _ zero11_apply

theorem loop2 : (loopOut d w).2.1 i0 = ∑ k : Fin 15, presE (cntN W k.val) :=
  fold_sum15 (loopStep d w) (fun a => a.2.1 i0) (fun m => presE (cntN W m))
    (fun k a => by
      show k0_pay22 (F := Ideal) w k a.2.1 i0 = _
      rw [pay22_raw, pay18_apply w W hw k, kPres_eq]) _ zero11_apply

theorem loop3 : (loopOut d w).2.2.1 i0 = ∑ k : Fin 15, cntN W k.val :=
  fold_sum15 (loopStep d w) (fun a => a.2.2.1 i0) (fun m => cntN W m)
    (fun k a => by
      show k0_pay23 (F := Ideal) w k a.2.2.1 i0 = _
      rw [pay23_raw, pay18_apply w W hw k]) _ zero11_apply

theorem loop4 : (loopOut d w).2.2.2 i0 = ∑ k : Fin 15, dsN D W k.val :=
  fold_sum15 (loopStep d w) (fun a => a.2.2.2 i0) (fun m => dsN D W m)
    (fun k a => by
      show k0_pay24 d w k a.2.2.2 i0 = _
      rw [pay24_raw, pay19_apply d w D W hd hw k]) _ zero11_apply

end Loop

/-! ## The instance term over abstract planes -/

open Cert.Spec in
theorem instVal_gen (v1 v3 v7 v8 : FVec Ideal S640x640 .f32) (w : IVec S640x640 32) (D : Plane) (W : IPlane)
    (hd : ∀ r c, k0_pay13 v1 v3 v7 v8 (ix2 r c) = D r c) (hw : ∀ r c, w (ix2 r c) = W r c)
    (hR : ∀ r c, IsR (D r c)) (hW : ∀ r c, (W r c).toNat < 16) :
    instVal v1 v3 v7 v8 w i0
      = Ideal.div (∑ k : Fin 16, termE (cntN W k.val) (dsN D W k.val)) (∑ k : Fin 16, presE (cntN W k.val)) := by
  have eC : ∑ k : Fin 15, cntN W k.val + cntN W 15 = Ideal.ofBits .f32 0x48C80000#32 :=
    (sum16 (fun m => cntN W m)).symm.trans ((sum_dsN _ W hW).trans (psum_one.trans lit_total.symm))
  have eD : ∑ k : Fin 15, dsN D W k.val + dsN D W 15 = psum D :=
    (sum16 (fun m => dsN D W m)).symm.trans (sum_dsN D W hW)
  have hC : Ideal.ofBits .f32 0x48C80000#32 - ∑ k : Fin 15, cntN W k.val = cntN W 15 :=
    sub_of_add_eq (IsR.sum _ _ fun k _ => IsR_dsN _ W k.val fun _ _ => IsR.one) eC
  have hD : psum D - ∑ k : Fin 15, dsN D W k.val = dsN D W 15 :=
    sub_of_add_eq (IsR.sum _ _ fun k _ => IsR_dsN D W k.val hR) eD
  unfold instVal
  rw [pay25_raw, loop1 _ w D W hd hw, loop2 _ w D W hd hw, loop3 _ w D W hd hw, loop4 _ w D W hd hw,
    pay14_apply v1 v3 v7 v8 D hd, kTerm_eq, kPres_eq, hC, hD]
  exact congrArg₂ Ideal.div (sum16 (fun m => termE (cntN W m) (dsN D W m))).symm (sum16 (fun m => presE (cntN W m))).symm

/-! ## The difference plane and the ids, from the loaded blocks -/

theorem cast4_apply (v0 : Vec Ideal S1x1x640x640 .f32) (hc : S1x1x640x640.ShapeCasts S640x640) (r c : Fin 640) :
    shapeCast S640x640 v0 hc (ix2 r c) = v0 (ix4 (0 : Fin 1) (0 : Fin 1) r c) :=
  shapeCast_apply v0 hc (ix2 r c) (ix4 (0 : Fin 1) (0 : Fin 1) r c) (by
    rw [Shape.rowMajor_val_four, Shape.rowMajor_val_two]
    show ((0 * 1 + 0) * 640 + r.val) * 640 + c.val = r.val * 640 + c.val
    omega)

theorem pay13_raw (v1 v3 v7 v8 : FVec Ideal S640x640 .f32) (i : S640x640.Idx) :
    k0_pay13 v1 v3 v7 v8 i
      = (max (v1 i) (v8 i * v7 i) - Ideal.ofBits .f32 0x3F800000#32) * (max (v1 i) (v8 i * v7 i) - Ideal.ofBits .f32 0x3F800000#32)
        - (max (v3 i) (v8 i * v7 i) - Ideal.ofBits .f32 0x3F800000#32) * (max (v3 i) (v8 i * v7 i) - Ideal.ofBits .f32 0x3F800000#32) := rfl

theorem pay13_apply (v0 v2 : Vec Ideal S1x1x640x640 .f32) (v6 : Vec Ideal S1x640x640 .f32) (r c : Fin 640) :
    k0_pay13 (F := Ideal) (k0_pay2 v0) (k0_pay3 v2) (k0_pay5 v6) (k0_pay6 v0 v2) (ix2 r c)
      = Cert.Spec.dmap (plA v0) (plA v2) (plB v6) r c := by
  have e2 : k0_pay2 v0 (ix2 r c) = plA v0 r c := cast4_apply v0 _ r c
  have e3 : k0_pay3 v2 (ix2 r c) = plA v2 r c := cast4_apply v2 _ r c
  have e5 : k0_pay5 v6 (ix2 r c) = plB v6 r c := shapeCast_1ab_ab_apply v6 _ r c
  have e6 : k0_pay6 v0 v2 (ix2 r c) = plA v0 r c * plA v2 r c := by
    show k0_pay2 v0 (ix2 r c) * k0_pay3 v2 (ix2 r c) = _
    rw [e2, e3]
  rw [pay13_raw, e2, e3, e5, e6, lit_one]
  rfl

theorem pay15_apply (v74 : Vec Ideal S1x640x640 .i32) (r c : Fin 640) : k0_pay15 v74 (ix2 r c) = plW v74 r c :=
  shapeCast_1ab_ab_apply v74 _ r c

open Cert.Spec in
theorem IsR_dmap (f1 f2 fo : Plane) (h1 : ∀ r c, IsR (f1 r c)) (h2 : ∀ r c, IsR (f2 r c))
    (ho : ∀ r c, fo r c = 0 ∨ fo r c = 1) (r c : Fin 640) : IsR (dmap f1 f2 fo r c) := by
  have hO : IsR (fo r c) := by
    rcases ho r c with e | e
    · rw [e]; exact IsR.zero
    · rw [e]; exact IsR.one
  have hp := ((h1 r c).mul (h2 r c)).mul hO
  exact ((((h1 r c).max hp).sub IsR.one).mul (((h1 r c).max hp).sub IsR.one)).sub
    ((((h2 r c).max hp).sub IsR.one).mul (((h2 r c).max hp).sub IsR.one))

end Cert.KernelIdeal.Body.Inst

namespace Cert.KernelIdeal.Body

open Idealize.ShloMosaic Idealize.ShloMosaic.ValueIdx Cert.KernelIdeal Cert.KernelIdeal.Gen

variable (v0 v2 : Vec Ideal S1x1x640x640 .f32) (v4 v6 : Vec Ideal S1x640x640 .f32) (v74 : Vec Ideal S1x640x640 .i32)

theorem instVal_eq (h : Cert.Spec.HypB (plA v0) (plA v2) (plB v4) (plB v6) (plW v74)) :
    instVal (F := Ideal) (k0_pay2 v0) (k0_pay3 v2) (k0_pay5 v6) (k0_pay6 v0 v2) (k0_pay15 v74) (ix2 (0 : Fin 1) (0 : Fin 1))
      = Cert.Spec.instTerm (plA v0) (plA v2) (plB v6) (plW v74) :=
  Inst.instVal_gen _ _ _ _ _ _ _ (Inst.pay13_apply v0 v2 v6) (Inst.pay15_apply v74)
    (Inst.IsR_dmap _ _ _ h.fin1 h.fin2 h.binO) h.rngI

end Cert.KernelIdeal.Body

end
-- ==== Proof.KerValue.lean ====
/-
  The kernel's scalar is the loss: each sample's row of statistics holds the specification's six per-sample terms in its
  first six lanes, and the host's last lines combine the columns' sums.
-/
import proofs.«404552_j11441792876694_3_alg».proof.Proof.Lanes
import proofs.«404552_j11441792876694_3_alg».proof.Proof.KerSums
import proofs.«404552_j11441792876694_3_alg».proof.Proof.KerInst

noncomputable section

namespace Cert.KernelIdeal.Body

open Idealize.ShloMosaic Idealize.ShloMosaic.ValueIdx Cert.KernelIdeal Cert.KernelIdeal.Gen Cert.Spec

variable (P : FVec Ideal S8x2x640x640 .f32) (C O : FVec Ideal S8x640x640 .f32) (I : IVec S8x640x640 32)

/-- Sample `b`'s blocks, read as planes, are the specification's planes of sample `b`. -/
theorem plA_blkP (b : Fin 8) (k : Fin 2) : plA (blkP (F := Ideal) P b k) = fun r c => P (ix4 b k r c) := rfl
theorem plB_blkM (X : FVec Ideal S8x640x640 .f32) (b : Fin 8) : plB (blkM (F := Ideal) X b) = fun r c => X (ix3 b r c) := rfl
theorem plW_blkI (b : Fin 8) : plW (blkI (F := Ideal) I b) = fun r c => I (ix3 b r c) := rfl

/-- Sample `b`'s planes satisfy the per-sample hypotheses. -/
theorem hypB_of_hyp (h : Hyp P C O I) (b : Fin 8) :
    HypB (plA (blkP (F := Ideal) P b 0)) (plA (blkP (F := Ideal) P b 1)) (plB (blkM (F := Ideal) C b))
      (plB (blkM (F := Ideal) O b)) (plW (blkI (F := Ideal) I b)) :=
  h.sample b

/-- The kernel's scalar, under the hypotheses on the inputs, is the loss. -/
theorem kernel_value (h : Hyp P C O I) (i : S_.Idx) : hostTail (F := Ideal) (statsArr P C O I) i = loss P C O I := by
  rw [hostTail_apply]
  unfold loss T0 T1 T2 T3 T4 T5
  have e0 : ∀ b : Fin 8, statsArr (F := Ideal) P C O I (ix3 b (0 : Fin 1) (0 : Fin 128))
      = andPos (pl1 P b) (pl2 P b) (plC C b) (plO O b) := fun b =>
    (blockVal_lane0 _ _ _ _ _).trans (pay8_eq _ _ _ _ _ (hypB_of_hyp P C O I h b))
  have e1 : ∀ b : Fin 8, statsArr (F := Ideal) P C O I (ix3 b (0 : Fin 1) (1 : Fin 128))
      = andNeg (pl1 P b) (pl2 P b) (plC C b) (plO O b) := fun b =>
    (blockVal_lane1 _ _ _ _ _).trans (pay9_eq _ _ _ _ _ (hypB_of_hyp P C O I h b))
  have e2 : ∀ b : Fin 8, statsArr (F := Ideal) P C O I (ix3 b (0 : Fin 1) (2 : Fin 128)) = nPos (plC C b) := fun b =>
    (blockVal_lane2 _ _ _ _ _).trans (pay10_eq _ _ _ _ _ (hypB_of_hyp P C O I h b))
  have e3 : ∀ b : Fin 8, statsArr (F := Ideal) P C O I (ix3 b (0 : Fin 1) (3 : Fin 128)) = nNeg (plC C b) := fun b =>
    (blockVal_lane3 _ _ _ _ _).trans (pay11_eq _ _ _ _ _ (hypB_of_hyp P C O I h b))
  have e4 : ∀ b : Fin 8, statsArr (F := Ideal) P C O I (ix3 b (0 : Fin 1) (4 : Fin 128))
      = orSum (pl1 P b) (pl2 P b) (plC C b) := fun b =>
    (blockVal_lane4 _ _ _ _ _).trans (pay12_eq _ _ _ _ _ (hypB_of_hyp P C O I h b))
  have e5 : ∀ b : Fin 8, statsArr (F := Ideal) P C O I (ix3 b (0 : Fin 1) (5 : Fin 128))
      = instTerm (pl1 P b) (pl2 P b) (plO O b) (plI I b) := fun b =>
    (blockVal_lane5 _ _ _ _ _).trans (instVal_eq _ _ _ _ _ (hypB_of_hyp P C O I h b))
  simp only [e0, e1, e2, e3, e4, e5]

end Cert.KernelIdeal.Body

end
-- ==== Proof.RefSums.lean ====
/-
  The reference's five plain sums are the specification's: the two cross-entropy sums over the positive and the
  negative pixels, the two pixel counts, and the cross-entropy of the larger prediction against the confidence mask.

  Each of the five is a sum over every index of an [8, 640, 640] array, started from zero. Such a sum is the triple sum
  over the sample, the row and the column; at one pixel the reference's term is computed from the two predictions
  p1, p2, the overlap bit and the confidence bit there, and it remains to see that
    • for a bit t in {0, 1},  -(t * A + (1 - t) * B)  is  -A  when t = 1 and  -B  otherwise (this uses only
      1 * x = x, 0 * x = 0, x + 0 = x, 1 - 1 = 0 and 1 - 0 = 1, which hold for every extended real x), and
    • the indicator of "conf = 1", read as a number, is conf itself, and that of "conf = 0" is 1 - conf.
-/
import proofs.«404552_j11441792876694_3_alg».proof.Proof.RefRead
import proofs.«404552_j11441792876694_3_alg».proof.Proof.Spec
import Idealize.ShloMosaic.Lib.IdealHost

noncomputable section

namespace Cert.ReferenceIdeal.Hand

open Idealize.ShloMosaic Idealize.ShloMosaic.ValueIdx Cert.ReferenceIdeal Cert.ReferenceIdeal.Read

/-! ## A sum over the [8, 640, 640] index set, coordinate by coordinate -/

/-- The index set of an [8, 640, 640] array is the product of its three coordinate ranges … -/
def idxEquiv3 : S8x640x640.Idx ≃ Fin 8 × Fin 640 × Fin 640 where
  toFun i := (i 0, i 1, i 2)
  invFun p := ix3 p.1 p.2.1 p.2.2
  left_inv i := (eq_ix3 i).symm
  right_inv _ := rfl

/-- … so a sum over it is the triple sum over the sample, the row and the column. -/
theorem sum_idx3 {M : Type*} [AddCommMonoid M] (f : S8x640x640.Idx → M) :
    ∑ j, f j = ∑ b : Fin 8, ∑ r : Fin 640, ∑ c : Fin 640, f (ix3 b r c) := by
  rw [← Equiv.sum_comp idxEquiv3.symm f, Fintype.sum_prod_type]
  refine Finset.sum_congr rfl fun b _ => ?_
  rw [Fintype.sum_prod_type]
  rfl

/-! ## Bits as numbers -/

/-- In the extended reals 1 - 1 = 0. -/
theorem one_sub_one : (1 : EReal) - 1 = 0 := by
  rw [show (1 : EReal) = ((1 : ℝ) : EReal) from rfl, ← EReal.coe_sub, sub_self, EReal.coe_zero]

/-- For a bit t, -(t * A + (1 - t) * B) is -A when t = 1 and -B when t = 0: the reference's two-term cross-entropy is
    the specification's, whatever the two clipped logarithms are. -/
theorem bce_of_bit {t : EReal} (ht : t = 0 ∨ t = 1) (p : EReal) :
    -(t * max Cert.Spec.m100 (Ideal.log p) + (1 - t) * max Cert.Spec.m100 (Ideal.log1p (-p))) = Cert.Spec.bce p t := by
  unfold Cert.Spec.bce Cert.Spec.clog Cert.Spec.clog1m
  rcases ht with rfl | rfl
  · rw [if_neg zero_ne_one, zero_mul, zero_add, sub_zero, one_mul]
  · rw [if_pos rfl, one_mul, one_sub_one, zero_mul, add_zero]

/-- An unsigned word read as an ideal float is its value. -/
theorem uitofp_ideal (φ : FTy) {w : Nat} (b : BitVec w) : FloatOps.uitofp (F := Ideal) φ b = ((b.toNat : ℝ) : EReal) := rfl

/-- The indicator of "t = 1", as a number, is t when t is a bit … -/
theorem ind_one {t : EReal} (ht : t = 0 ∨ t = 1) : (((Ideal.cmp .oeq t 1).toNat : ℝ) : EReal) = t := by
  rcases ht with rfl | rfl
  · simp [Ideal.cmp]
  · simp [Ideal.cmp]

/-- … and the indicator of "t = 0" is 1 - t. -/
theorem ind_zero {t : EReal} (ht : t = 0 ∨ t = 1) : (((Ideal.cmp .oeq t 0).toNat : ℝ) : EReal) = 1 - t := by
  rcases ht with rfl | rfl
  · simp [Ideal.cmp]
  · simp [Ideal.cmp, one_sub_one]

/-! ## The reference's arrays at a pixel -/

variable (x0 : (⟨S8x2x640x640, .f32⟩ : BufTy).Contents (Elt Ideal)) (x1 x3 : (⟨S8x640x640, .f32⟩ : BufTy).Contents (Elt Ideal))
  (x2 : (⟨S8x640x640, .i32⟩ : BufTy).Contents (Elt Ideal))

/-- The first slice, reshaped, reads the prediction array at channel 0 … -/
theorem idx_p1 (b : Fin 8) (r c : Fin 640) : idx_main_v0 (idx_main_v1 (ix3 b r c)) = ix4 b (0 : Fin 2) r c := by
  have hb := b.isLt; have hr := r.isLt; have hc := c.isLt
  funext a
  match a with
  | ⟨0, _⟩ => exact Fin.ext (by show ((b.val * 640 + r.val) * 640 + c.val) / 409600 = b.val; omega)
  | ⟨1, _⟩ => exact Fin.ext rfl
  | ⟨2, _⟩ => exact Fin.ext (by show ((b.val * 640 + r.val) * 640 + c.val) / 640 % 640 = r.val; omega)
  | ⟨3, _⟩ => exact Fin.ext (by show ((b.val * 640 + r.val) * 640 + c.val) % 640 = c.val; omega)

/-- … and the second at channel 1. -/
theorem idx_p2 (b : Fin 8) (r c : Fin 640) : idx_main_v2 (idx_main_v3 (ix3 b r c)) = ix4 b (1 : Fin 2) r c := by
  have hb := b.isLt; have hr := r.isLt; have hc := c.isLt
  funext a
  match a with
  | ⟨0, _⟩ => exact Fin.ext (by show ((b.val * 640 + r.val) * 640 + c.val) / 409600 = b.val; omega)
  | ⟨1, _⟩ => exact Fin.ext rfl
  | ⟨2, _⟩ => exact Fin.ext (by show ((b.val * 640 + r.val) * 640 + c.val) / 640 % 640 = r.val; omega)
  | ⟨3, _⟩ => exact Fin.ext (by show ((b.val * 640 + r.val) * 640 + c.val) % 640 = c.val; omega)

theorem v1_at (b : Fin 8) (r c : Fin 640) : val_main_v1 (F := Ideal) x0 (ix3 b r c) = x0 (ix4 b (0 : Fin 2) r c) := by
  rw [val_main_v1_apply, val_main_v0_apply, idx_p1]

theorem v3_at (b : Fin 8) (r c : Fin 640) : val_main_v3 (F := Ideal) x0 (ix3 b r c) = x0 (ix4 b (1 : Fin 2) r c) := by
  rw [val_main_v3_apply, val_main_v2_apply, idx_p2]

/-- The reference's cross-entropy of the product of the predictions against the overlap mask is the specification's. -/
theorem v15_at (h : Cert.Spec.Hyp x0 x1 x3 x2) (b : Fin 8) (r c : Fin 640) :
    val_main_v15 (F := Ideal) x0 x3 (ix3 b r c)
      = Cert.Spec.amap (Cert.Spec.pl1 x0 b) (Cert.Spec.pl2 x0 b) (Cert.Spec.plO x3 b) r c := by
  simp only [val_main_v15_apply, val_main_v14_apply, val_main_v10_apply, val_main_v13_apply, val_main_v6_apply,
    val_main_v9_apply, val_main_v12_apply, val_main_v5_apply, val_main_v8_apply, val_main_v7_apply, val_main_v4_apply,
    val_main_call0_v1_apply, val_main_call0_v0_apply, val_main_cst_apply, val_main_call1_v1_apply,
    val_main_call1_v0_apply, val_main_cst_0_apply, val_main_v11_apply, val_main_cst_1_apply, v1_at, v3_at,
    Ideal.hostNegf_def, Ideal.negf_def, Ideal.addf_def, Ideal.mulf_def, Ideal.subf_def, Ideal.maximumf_def,
    Ideal.hostUnary_log_def, Ideal.hostUnary_log1p_def, Ideal.ofBits_def, Ideal.ofBits_one_f32]
  exact bce_of_bit (h.binO _) _

/-- The indicator of a confident pixel is the confidence mask there … -/
theorem v80_at (h : Cert.Spec.Hyp x0 x1 x3 x2) (b : Fin 8) (r c : Fin 640) :
    val_main_v80 (F := Ideal) x1 (ix3 b r c) = x1 (ix3 b r c) := by
  simp only [val_main_v80_apply, val_main_v79_apply, val_main_v78_apply, val_main_cst_21_apply, Ideal.ofBits_def,
    Ideal.ofBits_one_f32, Ideal.cmpf_def, uitofp_ideal]
  exact ind_one (h.binC _)

/-- … and that of a pixel that is not confident is one minus it. -/
theorem v83_at (h : Cert.Spec.Hyp x0 x1 x3 x2) (b : Fin 8) (r c : Fin 640) :
    val_main_v83 (F := Ideal) x1 (ix3 b r c) = 1 - x1 (ix3 b r c) := by
  simp only [val_main_v83_apply, val_main_v82_apply, val_main_v81_apply, val_main_cst_22_apply, Ideal.ofBits_def,
    Ideal.ofBits_zero_f32, Ideal.cmpf_def, uitofp_ideal]
  exact ind_zero (h.binC _)

/-- The reference's cross-entropy of the larger prediction against the confidence mask is the specification's. -/
theorem v27_at (h : Cert.Spec.Hyp x0 x1 x3 x2) (b : Fin 8) (r c : Fin 640) :
    val_main_v27 (F := Ideal) x0 x1 (ix3 b r c)
      = Cert.Spec.bce (max (Cert.Spec.pl1 x0 b r c) (Cert.Spec.pl2 x0 b r c)) (Cert.Spec.plC x1 b r c) := by
  simp only [val_main_v27_apply, val_main_v26_apply, val_main_v22_apply, val_main_v25_apply, val_main_v18_apply,
    val_main_v21_apply, val_main_v24_apply, val_main_v17_apply, val_main_v20_apply, val_main_v19_apply,
    val_main_v16_apply, val_main_call2_v1_apply, val_main_call2_v0_apply, val_main_cst_2_apply,
    val_main_call3_v1_apply, val_main_call3_v0_apply, val_main_cst_3_apply, val_main_v23_apply, val_main_cst_4_apply,
    v1_at, v3_at, Ideal.hostNegf_def, Ideal.negf_def, Ideal.addf_def, Ideal.mulf_def, Ideal.subf_def,
    Ideal.maximumf_def, Ideal.hostUnary_log_def, Ideal.hostUnary_log1p_def, Ideal.ofBits_def, Ideal.ofBits_one_f32]
  exact bce_of_bit (h.binC _) _

/-! ## The five sums -/

theorem v85_eq (h : Cert.Spec.Hyp x0 x1 x3 x2) (i : S_.Idx) : val_main_v85 (F := Ideal) x0 x1 x3 i = Cert.Spec.T0 x0 x1 x3 := by
  rw [val_main_v85_apply, val_main_cst_23_apply, Ideal.ofBits_def, Ideal.ofBits_zero_f32, zero_add, sum_idx3]
  unfold Cert.Spec.T0 Cert.Spec.andPos Cert.Spec.psum
  refine Finset.sum_congr rfl fun b _ => Finset.sum_congr rfl fun r _ => Finset.sum_congr rfl fun c _ => ?_
  rw [val_main_v84_apply, Ideal.mulf_def, v15_at x0 x1 x3 x2 h, v80_at x0 x1 x3 x2 h]
  rfl

theorem v89_eq (h : Cert.Spec.Hyp x0 x1 x3 x2) (i : S_.Idx) : val_main_v89 (F := Ideal) x0 x1 x3 i = Cert.Spec.T1 x0 x1 x3 := by
  rw [val_main_v89_apply, val_main_cst_25_apply, Ideal.ofBits_def, Ideal.ofBits_zero_f32, zero_add, sum_idx3]
  unfold Cert.Spec.T1 Cert.Spec.andNeg Cert.Spec.psum
  refine Finset.sum_congr rfl fun b _ => Finset.sum_congr rfl fun r _ => Finset.sum_congr rfl fun c _ => ?_
  rw [val_main_v88_apply, Ideal.mulf_def, v15_at x0 x1 x3 x2 h, v83_at x0 x1 x3 x2 h]
  rfl

theorem v86_eq (h : Cert.Spec.Hyp x0 x1 x3 x2) (i : S_.Idx) : val_main_v86 (F := Ideal) x1 i = Cert.Spec.T2 x1 := by
  rw [val_main_v86_apply, val_main_cst_24_apply, Ideal.ofBits_def, Ideal.ofBits_zero_f32, zero_add, sum_idx3]
  unfold Cert.Spec.T2 Cert.Spec.nPos Cert.Spec.psum
  refine Finset.sum_congr rfl fun b _ => Finset.sum_congr rfl fun r _ => Finset.sum_congr rfl fun c _ => ?_
  rw [v80_at x0 x1 x3 x2 h]
  rfl

theorem v90_eq (h : Cert.Spec.Hyp x0 x1 x3 x2) (i : S_.Idx) : val_main_v90 (F := Ideal) x1 i = Cert.Spec.T3 x1 := by
  rw [val_main_v90_apply, val_main_cst_26_apply, Ideal.ofBits_def, Ideal.ofBits_zero_f32, zero_add, sum_idx3]
  unfold Cert.Spec.T3 Cert.Spec.nNeg Cert.Spec.psum
  refine Finset.sum_congr rfl fun b _ => Finset.sum_congr rfl fun r _ => Finset.sum_congr rfl fun c _ => ?_
  rw [v83_at x0 x1 x3 x2 h]
  rfl

theorem v28_eq (h : Cert.Spec.Hyp x0 x1 x3 x2) (i : S_.Idx) : val_main_v28 (F := Ideal) x0 x1 i = Cert.Spec.T4 x0 x1 := by
  rw [val_main_v28_apply, val_main_cst_5_apply, Ideal.ofBits_def, Ideal.ofBits_zero_f32, zero_add, sum_idx3]
  unfold Cert.Spec.T4 Cert.Spec.orSum Cert.Spec.psum
  refine Finset.sum_congr rfl fun b _ => Finset.sum_congr rfl fun r _ => Finset.sum_congr rfl fun c _ => ?_
  rw [v27_at x0 x1 x3 x2 h]

end Cert.ReferenceIdeal.Hand

end
-- ==== Proof.LibScatterGather1.lean ====
/-
  The accumulating scatter and the gather of a rank-1 table by a column of index words, read at an index.

  Both operations here take an operand of `N` entries and an `M × 1` column of index words, one word per update (or
  result) position: position `j` names entry `idx[j, 0]` of the operand, the word read as a SIGNED integer.
    • The scatter adds update `j` into the entry its word names, and drops it when the word names no entry; so entry
      `u` ends as its old value plus the sum of the updates whose word, read signed, is `u`.
    • The gather reads, at position `j`, the entry its word names, the word clamped into `[0, N − 1]`; when the word is
      already below `N` (and `N` is at most half the word range, so that the signed reading is the unsigned one) that
      is the entry at the word itself.
-/
import Idealize.ShloMosaic.PureOps.Ideal
import Idealize.ShloMosaic.PureOps.ShapeOps
import Idealize.ShloMosaic.PureOps.Contract
import Idealize.ShloMosaic.Lib.ValueIdx
import Idealize.ShloMosaic.Lib.StableHlo.Predicate

noncomputable section

namespace Cert.LibScatterGather1

open Idealize.ShloMosaic Idealize.ShloMosaic.ValueIdx

/-! ## The scatter -/

section Scatter

variable {N M w : Nat}

/-- A rank-1 index is its one coordinate. -/
def idxEquiv1 {n : Nat} : (⟨1, ![n]⟩ : Shape).Idx ≃ Fin n where
  toFun i := i 0
  invFun := ix1
  left_inv i := (eq_ix1 i).symm
  right_inv _ := rfl

/-- The start plus the window coordinate of update `j` on the operand's one axis is `j`'s index word, read signed:
    the axis is an inserted one (window coordinate zero) and the one the start index names. -/
theorem start_add_window (d : ScatterDims ⟨1, ![N]⟩ ⟨2, ![M, 1]⟩ ⟨1, ![M]⟩)
    (hiw : d.insertedWindowDims = [0]) (hsd : d.scatterDimsToOperandDims = [0]) (hivd : d.indexVectorDim = 1)
    (idx : IVec ⟨2, ![M, 1]⟩ w) (j : (⟨1, ![M]⟩ : Shape).Idx) (a : Fin 1) :
    d.start j idx a + (d.window j a : ℤ) = (idx (ix2 (n0 := M) (n1 := 1) (j 0) 0)).toInt := by
  obtain rfl : a = 0 := Subsingleton.elim _ _
  have hwin : d.window j 0 = 0 := by
    unfold ScatterDims.window
    rw [dif_neg]
    simp [ScatterDims.sKept, Shape.kept, hiw]
  have hm : (0 : Fin 1) ∈ d.scatterDimsToOperandDims := by rw [hsd]; exact List.mem_singleton.mpr rfl
  have hsi : d.siIdx j ⟨d.scatterDimsToOperandDims.idxOf 0, List.idxOf_lt_length_iff.2 hm⟩
      = ix2 (n0 := M) (n1 := 1) (j 0) 0 := by
    funext b
    match b with
    | ⟨0, _⟩ =>
      unfold ScatterDims.siIdx
      rw [dif_neg (by rw [hivd]; simp)]
      unfold ScatterDims.siCoord
      apply Fin.ext
      simp only [Fin.val_cast]
      have e : ∀ X : Fin 1, (j X).val = (j 0).val := fun X => by
        have hX : X = 0 := Subsingleton.elim _ _
        subst hX; rfl
      exact e _
    | ⟨1, _⟩ =>
      unfold ScatterDims.siIdx
      rw [dif_pos (by rw [hivd])]
      apply Fin.ext
      show List.idxOf (0 : Fin 1) d.scatterDimsToOperandDims = 0
      rw [hsd]; simp
  have hstart : d.start j idx 0 = (idx (ix2 (n0 := M) (n1 := 1) (j 0) 0)).toInt := by
    unfold ScatterDims.start
    rw [dif_pos hm, hsi]
  rw [hstart, hwin]; simp

/-- Update `j` lands on entry `i` exactly when its index word, read signed, is `i`'s position. -/
theorem resultIdx?_iff (d : ScatterDims ⟨1, ![N]⟩ ⟨2, ![M, 1]⟩ ⟨1, ![M]⟩)
    (hiw : d.insertedWindowDims = [0]) (hsd : d.scatterDimsToOperandDims = [0]) (hivd : d.indexVectorDim = 1)
    (idx : IVec ⟨2, ![M, 1]⟩ w) (j : (⟨1, ![M]⟩ : Shape).Idx) (i : (⟨1, ![N]⟩ : Shape).Idx) :
    d.resultIdx? j idx = some i ↔ (idx (ix2 (n0 := M) (n1 := 1) (j 0) 0)).toInt = ((i 0).val : ℤ) := by
  have hT := start_add_window d hiw hsd hivd idx j
  unfold ScatterDims.resultIdx?
  constructor
  · intro h
    split at h
    · rename_i hc
      have hf := Option.some.inj h
      have h0 : (d.start j idx 0 + (d.window j 0 : ℤ)).toNat = (i 0).val := congrArg (fun f => (f 0).val) hf
      have hc0 := (hc 0).1
      rw [hT 0] at hc0 h0
      omega
    · exact absurd h (by simp)
  · intro h
    have hi : (i 0).val < N := (i 0).isLt
    have hc : ∀ a : Fin 1, 0 ≤ d.start j idx a + (d.window j a : ℤ)
        ∧ d.start j idx a + (d.window j a : ℤ) < ((⟨1, ![N]⟩ : Shape).size a : ℤ) := by
      intro a
      obtain rfl : a = 0 := Subsingleton.elim _ _
      rw [hT 0, h]
      refine ⟨by omega, ?_⟩
      show ((i 0).val : ℤ) < (N : ℤ)
      omega
    rw [dif_pos hc]
    refine congrArg some ?_
    funext a
    obtain rfl : a = 0 := Subsingleton.elim _ _
    apply Fin.ext
    show (d.start j idx 0 + (d.window j 0 : ℤ)).toNat = (i 0).val
    rw [hT 0, h]; simp

/-- The accumulating scatter at an entry: the old value plus the updates whose word names it. -/
theorem scatterAdd_apply {φ : FTy} (d : ScatterDims ⟨1, ![N]⟩ ⟨2, ![M, 1]⟩ ⟨1, ![M]⟩)
    (hiw : d.insertedWindowDims = [0]) (hsd : d.scatterDimsToOperandDims = [0]) (hivd : d.indexVectorDim = 1)
    (x : FVec Ideal ⟨1, ![N]⟩ φ) (idx : IVec ⟨2, ![M, 1]⟩ w) (upd : FVec Ideal ⟨1, ![M]⟩ φ)
    (i : (⟨1, ![N]⟩ : Shape).Idx) :
    Host.scatterAdd (F := Ideal) d x idx upd i
      = x i + ∑ j ∈ Finset.univ.filter (fun j : (⟨1, ![M]⟩ : Shape).Idx =>
          (idx (ix2 (n0 := M) (n1 := 1) (j 0) 0)).toInt = ((i 0).val : ℤ)), upd j := by
  show Ideal.hostScatterAdd d x idx upd i = _
  unfold Ideal.hostScatterAdd
  refine congrArg (x i + ·) ?_
  refine Finset.sum_congr ?_ (fun _ _ => rfl)
  ext j
  simp only [Finset.mem_filter, Finset.mem_univ, true_and]
  exact resultIdx?_iff d hiw hsd hivd idx j i

/-- The same with the update positions counted by `Fin M` and the entry by `Fin N`. -/
theorem scatterAdd_apply_fin {φ : FTy} (d : ScatterDims ⟨1, ![N]⟩ ⟨2, ![M, 1]⟩ ⟨1, ![M]⟩)
    (hiw : d.insertedWindowDims = [0]) (hsd : d.scatterDimsToOperandDims = [0]) (hivd : d.indexVectorDim = 1)
    (x : FVec Ideal ⟨1, ![N]⟩ φ) (idx : IVec ⟨2, ![M, 1]⟩ w) (upd : FVec Ideal ⟨1, ![M]⟩ φ) (u : Fin N) :
    Host.scatterAdd (F := Ideal) d x idx upd (ix1 u)
      = x (ix1 u) + ∑ j ∈ Finset.univ.filter (fun j : Fin M => (idx (ix2 j (0 : Fin 1))).toInt = (u.val : ℤ)),
          upd (ix1 j) := by
  rw [scatterAdd_apply d hiw hsd hivd]
  refine congrArg (x (ix1 u) + ·) ?_
  rw [Finset.sum_filter, Finset.sum_filter]
  exact (Equiv.sum_comp (idxEquiv1 (n := M)).symm _).symm

end Scatter

/-! ## The gather -/

section Gather

variable {α : Type} {N M w : Nat}

/-- The gather at position `j`, whatever the word: the entry at the word read signed and clamped. -/
theorem gather_apply_clamp (d : GatherDims ⟨1, ![N]⟩ ⟨2, ![M, 1]⟩ ⟨1, ![M]⟩)
    (hcoll : d.collapsedSliceDims = [0]) (hob : d.operandBatchingDims = []) (hsim : d.startIndexMap = [0])
    (hivd : d.indexVectorDim = 1)
    (x : (⟨1, ![N]⟩ : Shape).Idx → α) (idx : IVec ⟨2, ![M, 1]⟩ w) (j : Fin M) (hN : 0 < N) :
    Host.gather d x idx (ix1 j)
      = x (ix1 ⟨min (idx (ix2 j (0 : Fin 1))).toInt.toNat (N - 1), by omega⟩) := by
  have h1 : ∀ {n : Nat} (k : Fin n), Shape.Idx.ofFin k = ix1 k := fun k => by
    funext a; obtain rfl : a = 0 := Subsingleton.elim _ _; exact Fin.ext rfl
  have h2 : StableHlo.Predicate.ixP j = ix2 j (0 : Fin 1) := by
    funext b; match b with | ⟨0, _⟩ => rfl | ⟨1, _⟩ => rfl
  rw [← h1 j, StableHlo.Predicate.gather_take d hcoll hob hsim hivd x idx j hN, h1]
  refine congrArg x (congrArg ix1 (Fin.ext ?_))
  show min (idx (StableHlo.Predicate.ixP j)).toInt.toNat (N - 1) = min (idx (ix2 j (0 : Fin 1))).toInt.toNat (N - 1)
  rw [h2]

/-- The gather at position `j` when the word is an entry's position: that entry. -/
theorem gather_apply (d : GatherDims ⟨1, ![N]⟩ ⟨2, ![M, 1]⟩ ⟨1, ![M]⟩)
    (hcoll : d.collapsedSliceDims = [0]) (hob : d.operandBatchingDims = []) (hsim : d.startIndexMap = [0])
    (hivd : d.indexVectorDim = 1)
    (x : (⟨1, ![N]⟩ : Shape).Idx → α) (idx : IVec ⟨2, ![M, 1]⟩ w) (j : Fin M)
    (hN : 2 * N ≤ 2 ^ w) (h : (idx (ix2 j (0 : Fin 1))).toNat < N) :
    Host.gather d x idx (ix1 j) = x (ix1 ⟨(idx (ix2 j (0 : Fin 1))).toNat, h⟩) := by
  have hN0 : 0 < N := by omega
  rw [gather_apply_clamp d hcoll hob hsim hivd x idx j hN0]
  refine congrArg x (congrArg ix1 (Fin.ext ?_))
  show min (idx (ix2 j (0 : Fin 1))).toInt.toNat (N - 1) = (idx (ix2 j (0 : Fin 1))).toNat
  rw [BitVec.toInt_eq_toNat_of_lt (by omega), Int.toNat_natCast]
  omega

end Gather

end Cert.LibScatterGather1

end
-- ==== Proof.RefInst.lean ====
/-
  The reference's instance term is the specification's: the three segment sums over the 128 (sample, id) segments
  are, at segment 16·b + k, the count and the two squared-error sums of sample b's pixels with id k.

  The argument, in order. (1) Update position j of the flat 3276800-pixel arrays is pixel (j / 409600, j / 640 % 640,
  j % 640), and its index word is 16·(j / 409600) + id(pixel); an id is below 16, so the word is below 128, reads the
  same signed and unsigned, and equals 16·b + k exactly when the pixel lies in sample b and carries id k. Hence an
  accumulating scatter into zeros, read at segment 16·b + k, is the sum over sample b's plane of the update values at
  the pixels of id k. (2) Under the hypotheses every squared error is a real number, so the three segment sums are
  reals; for a positive count the difference of the two quotients is the quotient of the difference, which is the
  specification's per-id mean, and for a zero count both sides select 0. (3) The integer row sum of the widened
  "count is positive" bits is the number of ids that occur, which as a real is the sum of the indicators. (4) The
  per-sample quotient and the sum over the eight samples then agree term by term.
-/
import proofs.«404552_j11441792876694_3_alg».proof.Proof.RefRead
import proofs.«404552_j11441792876694_3_alg».proof.Proof.Spec
import proofs.«404552_j11441792876694_3_alg».proof.Proof.LibScatterGather1
import Idealize.ShloMosaic.Lib.StableHlo.Predicate
import Idealize.ShloMosaic.Lib.IdealHost

noncomputable section

namespace Cert.ReferenceIdeal.Hand.Inst

open Idealize.ShloMosaic Idealize.ShloMosaic.ValueIdx Cert.Spec

/-! ## Words -/

/-- Sixteen times a sample number below 8 plus an id below 16 does not wrap, and reads the same signed. -/
theorem word_toInt (b' : ℕ) (hb : b' < 8) (w : BitVec 32) (hw : w.toNat < 16) :
    (IntOp.addi (IntOp.muli (BitVec.ofNat 32 b') 16#32) w).toInt = ((16 * b' + w.toNat : ℕ) : ℤ) := by
  have hn : (IntOp.addi (IntOp.muli (BitVec.ofNat 32 b') 16#32) w).toNat = 16 * b' + w.toNat := by
    show (BitVec.ofNat 32 b' * 16#32 + w).toNat = _
    rw [BitVec.toNat_add, BitVec.toNat_mul, BitVec.toNat_ofNat]
    have h16 : (16#32 : BitVec 32).toNat = 16 := rfl
    rw [h16]
    omega
  rw [StableHlo.Predicate.toInt_eq_toNat_of_lt (by rw [hn]; omega), hn]

/-! ## Pixels -/

/-- The sample, row and column of flat position j. -/
abbrev d0 (j : Fin 3276800) : Fin 8 := ⟨j.val / 409600, by have := j.isLt; omega⟩
abbrev d1 (j : Fin 3276800) : Fin 640 := ⟨j.val / 640 % 640, by omega⟩
abbrev d2 (j : Fin 3276800) : Fin 640 := ⟨j.val % 640, by omega⟩

/-- Flat positions are the (sample, row, column) triples, row-major. -/
def pixEquiv : Fin 3276800 ≃ Fin 8 × Fin 640 × Fin 640 where
  toFun j := (d0 j, d1 j, d2 j)
  invFun p := ⟨(p.1.val * 640 + p.2.1.val) * 640 + p.2.2.val, by
    have := p.1.isLt; have := p.2.1.isLt; have := p.2.2.isLt; omega⟩
  left_inv j := by
    apply Fin.ext
    have := j.isLt
    show (j.val / 409600 * 640 + j.val / 640 % 640) * 640 + j.val % 640 = j.val
    omega
  right_inv p := by
    obtain ⟨b, r, c⟩ := p
    have := b.isLt; have := r.isLt; have := c.isLt
    refine Prod.ext (Fin.ext ?_) (Prod.ext (Fin.ext ?_) (Fin.ext ?_))
    · show ((b.val * 640 + r.val) * 640 + c.val) / 409600 = b.val; omega
    · show ((b.val * 640 + r.val) * 640 + c.val) / 640 % 640 = r.val; omega
    · show ((b.val * 640 + r.val) * 640 + c.val) % 640 = c.val; omega

/-- A sum over the flat positions is the triple sum over samples, rows and columns. -/
theorem sum_pix {M : Type} [AddCommMonoid M] (f : Fin 8 → Fin 640 → Fin 640 → M) :
    ∑ j : Fin 3276800, f (d0 j) (d1 j) (d2 j) = ∑ b, ∑ r, ∑ c, f b r c := by
  have h := Equiv.sum_comp pixEquiv (fun p : Fin 8 × Fin 640 × Fin 640 => f p.1 p.2.1 p.2.2)
  refine h.trans ?_
  rw [Fintype.sum_prod_type]
  refine Finset.sum_congr rfl fun b _ => ?_
  rw [Fintype.sum_prod_type]

/-- The positions whose word is 16·b + k are sample b's pixels of id k: a sum over them is the sum over sample b's
    plane with the other pixels' terms replaced by zero. -/
theorem seg_sum {M : Type} [AddCommMonoid M] (I : Fin 8 → Fin 640 → Fin 640 → BitVec 32)
    (hI : ∀ b r c, (I b r c).toNat < 16) (g : Fin 8 → Fin 640 → Fin 640 → M) (b : Fin 8) (k : Fin 16) :
    ∑ j ∈ Finset.univ.filter (fun j : Fin 3276800 =>
        (IntOp.addi (IntOp.muli (BitVec.ofNat 32 (j.val / 409600)) 16#32) (I (d0 j) (d1 j) (d2 j))).toInt
          = ((b.val * 16 + k.val : ℕ) : ℤ)), g (d0 j) (d1 j) (d2 j)
      = ∑ r, ∑ c, if (I b r c).toNat = k.val then g b r c else 0 := by
  rw [Finset.sum_filter]
  trans ∑ j : Fin 3276800, (fun b' r c => if b' = b ∧ (I b' r c).toNat = k.val then g b' r c else 0) (d0 j) (d1 j) (d2 j)
  · refine Finset.sum_congr rfl fun j _ => ?_
    refine if_congr ?_ rfl rfl
    have hw := hI (d0 j) (d1 j) (d2 j)
    have hk := k.isLt
    have hb := b.isLt
    have hd : (d0 j).val = j.val / 409600 := rfl
    rw [word_toInt _ (d0 j).isLt _ hw, Nat.cast_inj]
    constructor
    · intro h
      exact ⟨Fin.ext (by show j.val / 409600 = b.val; omega), by omega⟩
    · rintro ⟨h1, h2⟩
      have : j.val / 409600 = b.val := congrArg Fin.val h1
      omega
  · refine (sum_pix (fun b' r c => if b' = b ∧ (I b' r c).toNat = k.val then g b' r c else 0)).trans ?_
    rw [Finset.sum_eq_single b]
    · refine Finset.sum_congr rfl fun r _ => Finset.sum_congr rfl fun c _ => ?_
      exact if_congr (by simp) rfl rfl
    · intro b' _ hne
      exact Finset.sum_eq_zero fun r _ => Finset.sum_eq_zero fun c _ => if_neg (fun h => hne h.1)
    · intro h; exact absurd (Finset.mem_univ b) h

/-! ## Sums of reals as extended reals -/

/-- A finite sum of reals, as an extended real, is the sum of the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A plane of reals sums to a real. -/
theorem psum_coe (a : Fin 640 → Fin 640 → ℝ) : psum (fun r c => ((a r c : ℝ) : EReal)) = ((∑ r, ∑ c, a r c : ℝ) : EReal) := by
  unfold psum
  rw [coe_sum]
  exact Finset.sum_congr rfl fun r _ => (coe_sum _ _).symm

/-- So does a plane of reals masked by a predicate. -/
theorem psum_mask_coe (p : Fin 640 → Fin 640 → Prop) [∀ r c, Decidable (p r c)] (a : Fin 640 → Fin 640 → ℝ) :
    psum (fun r c => if p r c then ((a r c : ℝ) : EReal) else 0)
      = ((∑ r, ∑ c, (if p r c then a r c else 0) : ℝ) : EReal) := by
  rw [← psum_coe]
  unfold psum
  refine Finset.sum_congr rfl fun r _ => Finset.sum_congr rfl fun c _ => ?_
  show (if p r c then ((a r c : ℝ) : EReal) else 0) = ((if p r c then a r c else 0 : ℝ) : EReal)
  split_ifs <;> rfl

/-! ## One id's term from its three segment sums -/

/-- The two squared errors at a pixel. -/
def e1 (f1 f2 fo : Plane) : Plane := fun r c =>
  (max (f1 r c) (f1 r c * f2 r c * fo r c) - 1) * (max (f1 r c) (f1 r c * f2 r c * fo r c) - 1)
def e2 (f1 f2 fo : Plane) : Plane := fun r c =>
  (max (f2 r c) (f1 r c * f2 r c * fo r c) - 1) * (max (f2 r c) (f1 r c * f2 r c * fo r c) - 1)

/-- A plane summed over the pixels whose id is k. -/
def ssum (fi : IPlane) (e : Plane) (k : Fin 16) : EReal :=
  psum fun r c => if (fi r c).toNat = k.val then e r c else 0

/-- The term of one id as the reference computes it from the count c and the two squared-error sums. -/
def keyTerm (c s1 s2 : EReal) : EReal :=
  Scalar.select (Ideal.cmp .ogt c 0)
    (1 - max (Ideal.div s1 (Scalar.select (Ideal.cmp .ogt c 0) c 1) - Ideal.div s2 (Scalar.select (Ideal.cmp .ogt c 0) c 1))
        (-(Ideal.div s1 (Scalar.select (Ideal.cmp .ogt c 0) c 1) - Ideal.div s2 (Scalar.select (Ideal.cmp .ogt c 0) c 1))))
    0

/-- The comparison "c is greater than zero" as a bit. -/
theorem cmp_ogt_zero_pos {c : EReal} (h : 0 < c) : Ideal.cmp .ogt c 0 = 1#1 := by
  show BitVec.ofBool (decide (0 < c)) = 1#1
  rw [decide_eq_true h]; rfl

theorem cmp_ogt_zero_neg {c : EReal} (h : ¬ 0 < c) : Ideal.cmp .ogt c 0 = 0#1 := by
  show BitVec.ofBool (decide (0 < c)) = 0#1
  rw [decide_eq_false h]; rfl

/-- The maximum of two reals, as an extended real. -/
theorem coe_max' (x y : ℝ) : max (x : EReal) (y : EReal) = ((max x y : ℝ) : EReal) :=
  (EReal.coe_strictMono.monotone.map_max).symm

/-- With real sums: the two quotients' difference is the quotient of the difference. -/
theorem keyTerm_real (N A1 A2 : ℝ) :
    keyTerm (N : EReal) (A1 : EReal) (A2 : EReal)
      = if (0 : EReal) < (N : EReal) then
          1 - max (Ideal.div ((A1 - A2 : ℝ) : EReal) (N : EReal)) (-(Ideal.div ((A1 - A2 : ℝ) : EReal) (N : EReal)))
        else 0 := by
  unfold keyTerm
  by_cases hN : (0 : EReal) < (N : EReal)
  · have hN' : N ≠ 0 := ne_of_gt (EReal.coe_pos.1 hN)
    rw [cmp_ogt_zero_pos hN, select_one, select_one, if_pos hN]
    have hD : Ideal.div (A1 : EReal) (N : EReal) - Ideal.div (A2 : EReal) (N : EReal)
        = Ideal.div ((A1 - A2 : ℝ) : EReal) (N : EReal) := by
      rw [Ideal.div_coe hN', Ideal.div_coe hN', Ideal.div_coe hN', ← EReal.coe_mul, ← EReal.coe_mul, ← EReal.coe_mul,
        ← EReal.coe_sub]
      congr 1; ring
    rw [hD]
  · rw [cmp_ogt_zero_neg hN, select_zero, if_neg hN]

/-- The squared errors of real planes are real. -/
theorem e1_coe (p1 p2 o : Fin 640 → Fin 640 → ℝ) (r c : Fin 640) :
    e1 (fun r c => (p1 r c : EReal)) (fun r c => (p2 r c : EReal)) (fun r c => (o r c : EReal)) r c
      = (((max (p1 r c) (p1 r c * p2 r c * o r c) - 1) * (max (p1 r c) (p1 r c * p2 r c * o r c) - 1) : ℝ) : EReal) := by
  show (max (p1 r c : EReal) ((p1 r c : EReal) * (p2 r c : EReal) * (o r c : EReal)) - 1)
      * (max (p1 r c : EReal) ((p1 r c : EReal) * (p2 r c : EReal) * (o r c : EReal)) - 1) = _
  rw [← EReal.coe_mul, ← EReal.coe_mul, coe_max', ← EReal.coe_one, ← EReal.coe_sub, ← EReal.coe_mul]

theorem e2_coe (p1 p2 o : Fin 640 → Fin 640 → ℝ) (r c : Fin 640) :
    e2 (fun r c => (p1 r c : EReal)) (fun r c => (p2 r c : EReal)) (fun r c => (o r c : EReal)) r c
      = (((max (p2 r c) (p1 r c * p2 r c * o r c) - 1) * (max (p2 r c) (p1 r c * p2 r c * o r c) - 1) : ℝ) : EReal) := by
  show (max (p2 r c : EReal) ((p1 r c : EReal) * (p2 r c : EReal) * (o r c : EReal)) - 1)
      * (max (p2 r c : EReal) ((p1 r c : EReal) * (p2 r c : EReal) * (o r c : EReal)) - 1) = _
  rw [← EReal.coe_mul, ← EReal.coe_mul, coe_max', ← EReal.coe_one, ← EReal.coe_sub, ← EReal.coe_mul]

theorem dmap_eq (f1 f2 fo : Plane) (r c : Fin 640) : dmap f1 f2 fo r c = e1 f1 f2 fo r c - e2 f1 f2 fo r c := rfl

/-- The count is a real. -/
theorem cnt_coe (fi : IPlane) (k : Fin 16) :
    cnt fi k = ((∑ r, ∑ c, (if (fi r c).toNat = k.val then (1 : ℝ) else 0) : ℝ) : EReal) := by
  unfold cnt
  exact psum_mask_coe (fun r c => (fi r c).toNat = k.val) (fun _ _ => 1)

/-- One id's term from the count and the two squared-error sums is the specification's: under the hypotheses the
    three sums are reals. -/
theorem key_term {f1 f2 fc fo : Plane} {fi : IPlane} (hb : HypB f1 f2 fc fo fi) (k : Fin 16) :
    keyTerm (cnt fi k) (ssum fi (e1 f1 f2 fo) k) (ssum fi (e2 f1 f2 fo) k) = perKey f1 f2 fo fi k := by
  obtain ⟨h1, h2, _, hO, _⟩ := hb
  choose p1 hp1 using h1
  choose p2 hp2 using h2
  have hO' : ∀ r c, ∃ x : ℝ, fo r c = (x : EReal) := fun r c =>
    (hO r c).elim (fun h => ⟨0, by rw [h]; rfl⟩) (fun h => ⟨1, by rw [h]; rfl⟩)
  choose o ho using hO'
  obtain rfl : f1 = fun r c => (p1 r c : EReal) := funext fun r => funext fun c => hp1 r c
  obtain rfl : f2 = fun r c => (p2 r c : EReal) := funext fun r => funext fun c => hp2 r c
  obtain rfl : fo = fun r c => (o r c : EReal) := funext fun r => funext fun c => ho r c
  have hs1 : ssum fi (e1 (fun r c => (p1 r c : EReal)) (fun r c => (p2 r c : EReal)) (fun r c => (o r c : EReal))) k
      = ((∑ r, ∑ c, (if (fi r c).toNat = k.val then
          (max (p1 r c) (p1 r c * p2 r c * o r c) - 1) * (max (p1 r c) (p1 r c * p2 r c * o r c) - 1) else 0) : ℝ) : EReal) := by
    unfold ssum
    simp only [e1_coe]
    exact psum_mask_coe (fun r c => (fi r c).toNat = k.val) _
  have hs2 : ssum fi (e2 (fun r c => (p1 r c : EReal)) (fun r c => (p2 r c : EReal)) (fun r c => (o r c : EReal))) k
      = ((∑ r, ∑ c, (if (fi r c).toNat = k.val then
          (max (p2 r c) (p1 r c * p2 r c * o r c) - 1) * (max (p2 r c) (p1 r c * p2 r c * o r c) - 1) else 0) : ℝ) : EReal) := by
    unfold ssum
    simp only [e2_coe]
    exact psum_mask_coe (fun r c => (fi r c).toNat = k.val) _
  have hd : dsum (fun r c => (p1 r c : EReal)) (fun r c => (p2 r c : EReal)) (fun r c => (o r c : EReal)) fi k
      = (((∑ r, ∑ c, (if (fi r c).toNat = k.val then
          (max (p1 r c) (p1 r c * p2 r c * o r c) - 1) * (max (p1 r c) (p1 r c * p2 r c * o r c) - 1) else 0))
        - (∑ r, ∑ c, (if (fi r c).toNat = k.val then
          (max (p2 r c) (p1 r c * p2 r c * o r c) - 1) * (max (p2 r c) (p1 r c * p2 r c * o r c) - 1) else 0)) : ℝ) : EReal) := by
    unfold dsum
    simp only [dmap_eq, e1_coe, e2_coe, ← EReal.coe_sub]
    rw [psum_mask_coe (fun r c => (fi r c).toNat = k.val) _]
    congr 1
    rw [← Finset.sum_sub_distrib]
    refine Finset.sum_congr rfl fun r _ => ?_
    rw [← Finset.sum_sub_distrib]
    refine Finset.sum_congr rfl fun c _ => ?_
    split_ifs <;> simp
  rw [hs1, hs2, cnt_coe, keyTerm_real]
  unfold perKey
  rw [hd, cnt_coe]

/-- How many ids occur, as the sum of the indicators. -/
theorem sum_present (fi : IPlane) :
    ∑ k : Fin 16, present fi k = (((Finset.univ.filter (fun q : Fin 16 => 0 < cnt fi q)).card : ℝ) : EReal) := by
  unfold present
  have h : ∀ k : Fin 16, (if 0 < cnt fi k then (1 : EReal) else 0) = ((if 0 < cnt fi k then (1 : ℝ) else 0 : ℝ) : EReal) := by
    intro k; split_ifs <;> rfl
  simp only [h]
  rw [← coe_sum, Finset.sum_boole]

/-! ## The reference's stages at a pixel and at a segment -/

section Program

open Cert.ReferenceIdeal Cert.ReferenceIdeal.Gen Cert.ReferenceIdeal.Read

variable (x0 : (⟨S8x2x640x640, .f32⟩ : BufTy).Contents (Elt Ideal)) (x1 x3 : (⟨S8x640x640, .f32⟩ : BufTy).Contents (Elt Ideal))
  (x2 : (⟨S8x640x640, .i32⟩ : BufTy).Contents (Elt Ideal))

/-- The first prediction plane at pixel (b, r, c). -/
theorem v1_at (b : Fin 8) (r c : Fin 640) : val_main_v1 (F := Ideal) x0 (ix3 b r c) = pl1 x0 b r c := by
  rw [val_main_v1_apply, val_main_v0_apply]
  show x0 _ = x0 (ix4 b (0 : Fin 2) r c)
  refine congrArg x0 (funext fun a => ?_)
  have hb := b.isLt; have hr := r.isLt; have hc := c.isLt
  match a with
  | ⟨0, _⟩ => exact Fin.ext (by show ((b.val * 640 + r.val) * 640 + c.val) / 409600 = b.val; omega)
  | ⟨1, _⟩ => rfl
  | ⟨2, _⟩ => exact Fin.ext (by show ((b.val * 640 + r.val) * 640 + c.val) / 640 % 640 = r.val; omega)
  | ⟨3, _⟩ => exact Fin.ext (by show ((b.val * 640 + r.val) * 640 + c.val) % 640 = c.val; omega)

/-- The second prediction plane at pixel (b, r, c). -/
theorem v3_at (b : Fin 8) (r c : Fin 640) : val_main_v3 (F := Ideal) x0 (ix3 b r c) = pl2 x0 b r c := by
  rw [val_main_v3_apply, val_main_v2_apply]
  show x0 _ = x0 (ix4 b (1 : Fin 2) r c)
  refine congrArg x0 (funext fun a => ?_)
  have hb := b.isLt; have hr := r.isLt; have hc := c.isLt
  match a with
  | ⟨0, _⟩ => exact Fin.ext (by show ((b.val * 640 + r.val) * 640 + c.val) / 409600 = b.val; omega)
  | ⟨1, _⟩ => rfl
  | ⟨2, _⟩ => exact Fin.ext (by show ((b.val * 640 + r.val) * 640 + c.val) / 640 % 640 = r.val; omega)
  | ⟨3, _⟩ => exact Fin.ext (by show ((b.val * 640 + r.val) * 640 + c.val) % 640 = c.val; omega)

/-- The first squared error at pixel (b, r, c). -/
theorem v42_at (b : Fin 8) (r c : Fin 640) :
    val_main_v42 (F := Ideal) x0 x3 (ix3 b r c) = e1 (pl1 x0 b) (pl2 x0 b) (plO x3 b) r c := by
  rw [val_main_v42_apply, val_main_v41_apply, val_main_v31_apply, val_main_v30_apply, val_main_v4_apply,
    val_main_v40_apply, val_main_cst_7_apply, v1_at, v3_at]
  simp only [Ideal.mulf_def, Ideal.subf_def, Ideal.maximumf_def, Ideal.ofBits_def, Ideal.ofBits_one_f32]
  rfl

/-- The second squared error at pixel (b, r, c). -/
theorem v46_at (b : Fin 8) (r c : Fin 640) :
    val_main_v46 (F := Ideal) x0 x3 (ix3 b r c) = e2 (pl1 x0 b) (pl2 x0 b) (plO x3 b) r c := by
  rw [val_main_v46_apply, val_main_v45_apply, val_main_v32_apply, val_main_v30_apply, val_main_v4_apply,
    val_main_v44_apply, val_main_cst_8_apply, v1_at, v3_at]
  simp only [Ideal.mulf_def, Ideal.subf_def, Ideal.maximumf_def, Ideal.ofBits_def, Ideal.ofBits_one_f32]
  rfl

/-- The index word of update position j: sixteen times its sample plus its pixel's id. -/
theorem word_at (j : Fin 3276800) :
    val_main_v50 (F := Ideal) x2 (ix2 j (0 : Fin 1))
      = IntOp.addi (IntOp.muli (BitVec.ofNat 32 (j.val / 409600)) 16#32) (x2 (ix3 (d0 j) (d1 j) (d2 j))) := by
  rw [val_main_v50_apply, val_main_v39_apply, val_main_v38_apply, val_main_v37_apply, val_main_v36_apply,
    val_main_v34_apply, val_main_v33_apply, val_main_v35_apply, val_main_c_apply]
  have hi : idx_main_v39 (idx_main_v50 (ix2 j (0 : Fin 1))) = ix3 (d0 j) (d1 j) (d2 j) := by
    funext a; match a with | ⟨0, _⟩ => rfl | ⟨1, _⟩ => rfl | ⟨2, _⟩ => rfl
  rw [hi]

/-- An accumulating scatter by the index column, read at segment 16·b + k: the old value plus the sum over sample
    b's plane of the update values at the pixels of id k. -/
theorem seg_at (hI : ∀ j, (x2 j).toNat < 16) (init : FVec Ideal S128 .f32) (upd : FVec Ideal S3276800 .f32)
    (g : S8x640x640.Idx → EReal) (hg : ∀ j : Fin 3276800, upd (ix1 j) = g (ix3 (d0 j) (d1 j) (d2 j)))
    (b : Fin 8) (k : Fin 16) (hu : b.val * 16 + k.val < 128) :
    Host.scatterAdd (F := Ideal) scatter_S128_S3276800x1_S3276800_n_0_0_1 init (val_main_v50 (F := Ideal) x2) upd
        (ix1 ⟨b.val * 16 + k.val, hu⟩)
      = init (ix1 ⟨b.val * 16 + k.val, hu⟩)
        + ∑ r : Fin 640, ∑ c : Fin 640, if (x2 (ix3 b r c)).toNat = k.val then g (ix3 b r c) else 0 := by
  rw [Cert.LibScatterGather1.scatterAdd_apply_fin _ rfl rfl rfl]
  refine congrArg (_ + ·) ?_
  have key := seg_sum (fun b r c => x2 (ix3 b r c)) (fun b r c => hI _) (fun b r c => g (ix3 b r c)) b k
  refine Eq.trans (Finset.sum_congr (Finset.filter_congr fun j _ => ?_) fun j _ => hg j) key
  rw [word_at]

/-- Segment 16·b + k is entry (b, k) of the reshaped segment array. -/
theorem seg_idx (b : Fin 8) (k : Fin 16) (hu : b.val * 16 + k.val < 128) :
    idx_main_v52 (ix2 b k) = ix1 ⟨b.val * 16 + k.val, hu⟩ := by
  funext a; match a with | ⟨0, _⟩ => rfl

theorem seg_lt (b : Fin 8) (k : Fin 16) : b.val * 16 + k.val < 128 := by
  have := b.isLt; have := k.isLt; omega

/-- The count of sample b's pixels of id k. -/
theorem v52_at (hI : ∀ j, (x2 j).toNat < 16) (b : Fin 8) (k : Fin 16) :
    val_main_v52 (F := Ideal) x2 (ix2 b k) = cnt (plI x2 b) k := by
  rw [val_main_v52_apply, seg_idx b k (seg_lt b k)]
  unfold val_main_v51
  rw [seg_at x2 hI _ _ (fun _ => 1) (fun j => by
    rw [val_main_v48_apply, val_main_cst_9_apply]; exact Ideal.ofBits_one_f32) b k (seg_lt b k)]
  rw [val_main_v49_apply, val_main_cst_10_apply]
  simp only [Ideal.ofBits_def, Ideal.ofBits_zero_f32, zero_add]
  rfl

/-- The sum of the first squared error over sample b's pixels of id k. -/
theorem v56_at (hI : ∀ j, (x2 j).toNat < 16) (b : Fin 8) (k : Fin 16) :
    val_main_v56 (F := Ideal) x0 x2 x3 (ix2 b k) = ssum (plI x2 b) (e1 (pl1 x0 b) (pl2 x0 b) (plO x3 b)) k := by
  rw [val_main_v56_apply, show idx_main_v56 (ix2 b k) = idx_main_v52 (ix2 b k) from rfl, seg_idx b k (seg_lt b k)]
  unfold val_main_v55
  rw [show val_main_v54 (F := Ideal) x2 = val_main_v50 (F := Ideal) x2 from rfl]
  rw [seg_at x2 hI _ _ (val_main_v42 (F := Ideal) x0 x3) (fun j => by
    rw [val_main_v43_apply]
    exact congrArg _ (funext fun a => by match a with | ⟨0, _⟩ => rfl | ⟨1, _⟩ => rfl | ⟨2, _⟩ => rfl)) b k (seg_lt b k)]
  rw [val_main_v53_apply, val_main_cst_11_apply]
  simp only [Ideal.ofBits_def, Ideal.ofBits_zero_f32, zero_add, v42_at]
  rfl

/-- The sum of the second squared error over sample b's pixels of id k. -/
theorem v60_at (hI : ∀ j, (x2 j).toNat < 16) (b : Fin 8) (k : Fin 16) :
    val_main_v60 (F := Ideal) x0 x2 x3 (ix2 b k) = ssum (plI x2 b) (e2 (pl1 x0 b) (pl2 x0 b) (plO x3 b)) k := by
  rw [val_main_v60_apply, show idx_main_v60 (ix2 b k) = idx_main_v52 (ix2 b k) from rfl, seg_idx b k (seg_lt b k)]
  unfold val_main_v59
  rw [show val_main_v58 (F := Ideal) x2 = val_main_v50 (F := Ideal) x2 from rfl]
  rw [seg_at x2 hI _ _ (val_main_v46 (F := Ideal) x0 x3) (fun j => by
    rw [val_main_v47_apply]
    exact congrArg _ (funext fun a => by match a with | ⟨0, _⟩ => rfl | ⟨1, _⟩ => rfl | ⟨2, _⟩ => rfl)) b k (seg_lt b k)]
  rw [val_main_v57_apply, val_main_cst_12_apply]
  simp only [Ideal.ofBits_def, Ideal.ofBits_zero_f32, zero_add, v46_at]
  rfl

/-- "The count is positive" at entry (b, k). -/
theorem v62_at (hI : ∀ j, (x2 j).toNat < 16) (b : Fin 8) (k : Fin 16) :
    val_main_v62 (F := Ideal) x2 (ix2 b k) = Ideal.cmp .ogt (cnt (plI x2 b) k) 0 := by
  rw [val_main_v62_apply, v52_at x2 hI, val_main_v61_apply, val_main_cst_13_apply]
  simp only [Ideal.ofBits_def, Ideal.ofBits_zero_f32]
  rfl

/-- Id k's term of sample b. -/
theorem v70_at (h : Hyp x0 x1 x3 x2) (b : Fin 8) (k : Fin 16) :
    val_main_v70 (F := Ideal) x0 x2 x3 (ix2 b k) = perKey (pl1 x0 b) (pl2 x0 b) (plO x3 b) (plI x2 b) k := by
  rw [← key_term (h.sample b) k]
  rw [val_main_v70_apply, val_main_v69_apply, val_main_v67_apply, val_main_v66_apply, val_main_v64_apply,
    val_main_v65_apply, val_main_v63_apply, v62_at x2 h.rngI, v52_at x2 h.rngI, v56_at x0 x3 x2 h.rngI,
    v60_at x0 x3 x2 h.rngI, val_main_v68_apply, val_main_cst_15_apply, val_main_call4_v1_apply,
    val_main_call4_v0_apply, val_main_cst_14_apply, val_main_call5_v1_apply, val_main_call5_v0_apply,
    val_main_cst_16_apply]
  simp only [Ideal.ofBits_def, Ideal.ofBits_zero_f32, Ideal.ofBits_one_f32]
  rfl

/-- The number of ids that occur in sample b, as a real. -/
theorem v73_at (hI : ∀ j, (x2 j).toNat < 16) (b : Fin 8) :
    val_main_v73 (F := Ideal) x2 (ix1 b) = ∑ k : Fin 16, present (plI x2 b) k := by
  rw [val_main_v73_apply, sum_present]
  have hc : (val_main_v72 (F := Ideal) x2 (ix1 b)).toNat
      = (Finset.univ.filter (fun q : Fin 16 => val_main_v62 (F := Ideal) x2 (StableHlo.Predicate.ij b q) = 1#1)).card :=
    StableHlo.Predicate.toNat_reduce_count_cols (by norm_num) (val_main_v62 (F := Ideal) x2) natLt_1_32
      reducesTo_S8x16_S8_d1 h_S_ (ix1 b)
  have hf : Finset.univ.filter (fun q : Fin 16 => val_main_v62 (F := Ideal) x2 (StableHlo.Predicate.ij b q) = 1#1)
      = Finset.univ.filter (fun q : Fin 16 => 0 < cnt (plI x2 b) q) := by
    refine Finset.filter_congr fun q _ => ?_
    have hq : StableHlo.Predicate.ij b q = ix2 b q := by
      funext a; match a with | ⟨0, _⟩ => rfl | ⟨1, _⟩ => rfl
    rw [hq, v62_at x2 hI]
    show BitVec.ofBool (decide (0 < cnt (plI x2 b) q)) = 1#1 ↔ _
    rw [StableHlo.Predicate.ofBool_eq_one_iff, decide_eq_true_eq]
  have hle : (Finset.univ.filter (fun q : Fin 16 => 0 < cnt (plI x2 b) q)).card ≤ 16 :=
    (Finset.card_le_univ _).trans (by simp)
  rw [hf] at hc
  show (((val_main_v72 (F := Ideal) x2 (ix1 b)).toInt : ℝ) : EReal) = _
  rw [StableHlo.Predicate.toInt_eq_toNat_of_lt (by rw [hc]; omega), hc, Int.cast_natCast]

/-- Sample b's instance term. -/
theorem v75_at (h : Hyp x0 x1 x3 x2) (b : Fin 8) :
    val_main_v75 (F := Ideal) x0 x2 x3 (ix1 b) = instTerm (pl1 x0 b) (pl2 x0 b) (plO x3 b) (plI x2 b) := by
  rw [val_main_v75_apply, v73_at x2 h.rngI, val_main_v74_apply, val_main_cst_18_apply]
  have hk : ∀ k : Fin 16, idx_main_v74 (ix1 b) k = ix2 b k := fun k => by
    funext a; match a with | ⟨0, _⟩ => rfl | ⟨1, _⟩ => rfl
  simp only [hk, v70_at x0 x1 x3 x2 h, Ideal.ofBits_def, Ideal.ofBits_zero_f32, zero_add]
  rfl

end Program

end Cert.ReferenceIdeal.Hand.Inst

namespace Cert.ReferenceIdeal.Hand

open Idealize.ShloMosaic Idealize.ShloMosaic.ValueIdx Cert.ReferenceIdeal Cert.ReferenceIdeal.Read

variable (x0 : (⟨S8x2x640x640, .f32⟩ : BufTy).Contents (Elt Ideal)) (x1 x3 : (⟨S8x640x640, .f32⟩ : BufTy).Contents (Elt Ideal))
  (x2 : (⟨S8x640x640, .i32⟩ : BufTy).Contents (Elt Ideal))

theorem v76_eq (h : Cert.Spec.Hyp x0 x1 x3 x2) (i : S_.Idx) : val_main_v76 (F := Ideal) x0 x2 x3 i = Cert.Spec.T5 x0 x3 x2 := by
  rw [val_main_v76_apply, val_main_cst_19_apply]
  simp only [Ideal.ofBits_def, Ideal.ofBits_zero_f32, zero_add]
  unfold Cert.Spec.T5
  rw [← Equiv.sum_comp (Cert.LibScatterGather1.idxEquiv1 (n := 8)).symm]
  exact Finset.sum_congr rfl fun b _ => Inst.v75_at x0 x1 x3 x2 h b

end Cert.ReferenceIdeal.Hand

end
-- ==== Proof.RefValue.lean ====
/-
  The reference's scalar is the loss: its last lines combine its six sums as the specification does, and each sum is
  the specification's.
-/
import proofs.«404552_j11441792876694_3_alg».proof.Proof.RefSums
import proofs.«404552_j11441792876694_3_alg».proof.Proof.RefInst

noncomputable section

namespace Cert.ReferenceIdeal.Hand

open Idealize.ShloMosaic Idealize.ShloMosaic.ValueIdx Cert.ReferenceIdeal Cert.ReferenceIdeal.Read Cert.Spec

variable (x0 : (⟨S8x2x640x640, .f32⟩ : BufTy).Contents (Elt Ideal)) (x1 x3 : (⟨S8x640x640, .f32⟩ : BufTy).Contents (Elt Ideal))
  (x2 : (⟨S8x640x640, .i32⟩ : BufTy).Contents (Elt Ideal))

/-- The reference's last lines combine its six sums. -/
theorem v97_combine (i : S_.Idx) : val_main_v97 (F := Ideal) x0 x1 x2 x3 i
    = combine (val_main_v85 (F := Ideal) x0 x1 x3 i) (val_main_v89 (F := Ideal) x0 x1 x3 i) (val_main_v86 (F := Ideal) x1 i)
        (val_main_v90 (F := Ideal) x1 i) (val_main_v28 (F := Ideal) x0 x1 i) (val_main_v76 (F := Ideal) x0 x2 x3 i) := by
  rw [val_main_v97_apply, val_main_v95_apply, val_main_v96_apply, val_main_v93_apply, val_main_v94_apply, val_main_v92_apply,
    val_main_v87_apply, val_main_v91_apply, val_main_v29_apply, val_main_v77_apply, val_main_cst_27_apply, val_main_cst_28_apply,
    val_main_cst_29_apply, val_main_cst_6_apply, val_main_cst_20_apply]
  simp only [Ideal.addf_def, Ideal.mulf_def, Ideal.hostDivf_def, Ideal.ofBits_def, combine]

/-- The reference's scalar, under the hypotheses on the inputs, is the loss. -/
theorem ref_value (h : Hyp x0 x1 x3 x2) (i : S_.Idx) : val_main_v97 (F := Ideal) x0 x1 x2 x3 i = loss x0 x1 x3 x2 := by
  unfold loss
  rw [v97_combine, v85_eq x0 x1 x3 x2 h, v89_eq x0 x1 x3 x2 h, v86_eq x0 x1 x3 x2 h, v90_eq x0 x1 x3 x2 h, v28_eq x0 x1 x3 x2 h,
    v76_eq x0 x1 x3 x2 h]

end Cert.ReferenceIdeal.Hand

end
-- ==== Proof.lean ====
/-
  Kernel and reference compute one loss.

  Each sample's 640 × 640 plane gives five plain sums — the clipped binary cross-entropy of the product of the two
  predictions against the overlap mask, summed over the positive and over the negative pixels of the confidence mask;
  the two pixel counts; the cross-entropy of the larger prediction against the confidence mask — and an instance term,
  the mean over the instance ids present of 1 − |mean over the id's pixels of the difference of two squared errors|.
  The kernel makes the six per sample (the sum over the negatives and their count by complement, the binary masks
  letting a select stand for the two-term cross-entropy, the sixteenth id by complement since every id is below 16) and
  the host adds them over the samples; the reference sums over the whole batch at once and gets the per-id sums by a
  segment sum over the 128 (sample, id) pairs. Both then combine the six sums in the same way. The equalities need the
  predictions finite, the two masks binary and the ids in range: the precondition says so.
-/
import proofs.«404552_j11441792876694_3_alg».proof.Defs
import proofs.«404552_j11441792876694_3_alg».proof.Proof.Gen.Kernel
import proofs.«404552_j11441792876694_3_alg».proof.Proof.Gen.Kernel.Frame
import proofs.«404552_j11441792876694_3_alg».proof.Proof.Gen.KernelIdeal
import proofs.«404552_j11441792876694_3_alg».proof.Proof.Gen.KernelIdeal.Frame
import proofs.«404552_j11441792876694_3_alg».proof.Proof.Gen.ReferenceIdeal
import proofs.«404552_j11441792876694_3_alg».proof.Proof.Gen.Pre_finite_inputs
import proofs.«404552_j11441792876694_3_alg».proof.Proof.RefRun
import proofs.«404552_j11441792876694_3_alg».proof.Proof.RefRead
import proofs.«404552_j11441792876694_3_alg».proof.Proof.Pre
import proofs.«404552_j11441792876694_3_alg».proof.Proof.KerFrame
import proofs.«404552_j11441792876694_3_alg».proof.Proof.KerValue
import proofs.«404552_j11441792876694_3_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the loss of the (agreeing) inputs in their result. -/
theorem algebraic : Cert.algebraic_KernelIdeal_ReferenceIdeal := by
  intro m ρ m' ρ' hpre hagree
  refine ⟨fun c => fun _ => Cert.Spec.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩)
      (Cert.KernelIdeal.Body.run_value (F := Ideal) m ρ)
    funext i
    exact Cert.KernelIdeal.Body.kernel_value _ _ _ _ (Cert.PreRead.hyp_of_pre _ _ _ _ _ (hpre c)) i
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v97_eq, (hagree c).1, (hagree c).2.1, (hagree c).2.2.1, (hagree c).2.2.2.1]
    funext i
    exact Cert.ReferenceIdeal.Hand.ref_value _ _ _ _ (Cert.PreRead.hyp_of_pre _ _ _ _ _ (hpre c)) i

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
